-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x90 : Shape := ⟨2, ![50000, 90]⟩
abbrev S2x800000 : Shape := ⟨2, ![2, 800000]⟩
abbrev S50000 : Shape := ⟨1, ![50000]⟩
abbrev S90x90 : Shape := ⟨2, ![90, 90]⟩
abbrev S90 : Shape := ⟨1, ![90]⟩
abbrev S32x90 : Shape := ⟨2, ![32, 90]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S50000x90 : S_.BroadcastsInDim S50000x90 (![] : Fin 0 → Fin S50000x90.rank)
  reducesTo_S50000x90_S_d0_1 : S50000x90.ReducesTo [0, 1] S_
  h_S_ : 0 < S_.numel
  bcast_S_S90x90 : S_.BroadcastsInDim S90x90 (![] : Fin 0 → Fin S90x90.rank)
  reducesTo_S90x90_S_d0_1 : S90x90.ReducesTo [0, 1] S_
  bcast_S_S90 : S_.BroadcastsInDim S90 (![] : Fin 0 → Fin S90.rank)
  reducesTo_S90_S_d0 : S90.ReducesTo [0] S_
  bcast_S_S32x90 : S_.BroadcastsInDim S32x90 (![] : Fin 0 → Fin S32x90.rank)
  reducesTo_S32x90_S_d0_1 : S32x90.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S1x32 .f32) (main_arg15 : FVec F S1 .f32) (main_v48 : IVec S_ 1) (main_v49 : FVec F S32x90 .f32) (main_v50 : FVec F S32x90 .f32) : IVec S_ 1 :=
  let main_v51 : IVec S32x90 1 := cmpf .olt main_v49 main_v50
  let main_c_19 : IVec S_ 1 := constantI S_ 1 1#1
  let main_v52 : IVec S_ 1 := (fun x v => Host.reduce IntOp.andi x v reducesTo_S32x90_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S1x32 .f32 := Host.absf main_arg14
  let main_cst_22 : FVec F S_ .f32 := constant S_ .f32 0x7F800000#32
  let main_v60 : FVec F S1x32 .f32 := broadcastInDim S1x32 ![] bcast_S_S1x32 main_cst_22
  let main_v61 : IVec S1x32 1 := cmpf .olt main_v59 main_v60
  let main_c_23 : IVec S_ 1 := constantI S_ 1 1#1
  let main_v62 : IVec S_ 1 := (fun x v => Host.reduce IntOp.andi x v reducesTo_S1x32_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S90x90 .f32) (main_arg10 : FVec F S90 .f32) (main_arg11 : FVec F S90x90 .f32) (main_arg12 : FVec F S32x90 .f32) (main_arg13 : FVec F S32 .f32) (main_arg14 : FVec F S1x32 .f32) (main_arg15 : FVec F S1 .f32) (main_v33 : IVec S_ 1) : IVec S_ 1 :=
  let main_v34 : FVec F S90x90 .f32 := Host.absf main_arg9
  let main_cst_12 : FVec F S_ .f32 := constant S_ .f32 0x7F800000#32
  let main_v35 : FVec F S90x90 .f32 := broadcastInDim S90x90 ![] bcast_S_S90x90 main_cst_12
  let main_v36 : IVec S90x90 1 := cmpf .olt main_v34 main_v35
  let main_c_13 : IVec S_ 1 := constantI S_ 1 1#1
  let main_v37 : IVec S_ 1 := (fun x v => Host.reduce IntOp.andi x v reducesTo_S90x90_S_d0_1 h_S_) main_v36 main_c_13
  let main_v38 : IVec S_ 1 := andi main_v33 main_v37
  let main_v39 : FVec F S90 .f32 := Host.absf main_arg10
  let main_cst_14 : FVec F S_ .f32 := constant S_ .f32 0x7F800000#32
  let main_v40 : FVec F S90 .f32 := broadcastInDim S90 ![] bcast_S_S90 main_cst_14
  let main_v41 : IVec S90 1 := cmpf .olt main_v39 main_v40
  let main_c_15 : IVec S_ 1 := constantI S_ 1 1#1
  let main_v42 : IVec S_ 1 := (fun x v => Host.reduce IntOp.andi x v reducesTo_S90_S_d0 h_S_) main_v41 main_c_15
  let main_v43 : IVec S_ 1 := andi main_v38 main_v42
  let main_v44 : FVec F S90x90 .f32 := Host.absf main_arg11
  let main_cst_16 : FVec F S_ .f32 := constant S_ .f32 0x7F800000#32
  let main_v45 : FVec F S90x90 .f32 := broadcastInDim S90x90 ![] bcast_S_S90x90 main_cst_16
  let main_v46 : IVec S90x90 1 := cmpf .olt main_v44 main_v45
  let main_c_17 : IVec S_ 1 := constantI S_ 1 1#1
  let main_v47 : IVec S_ 1 := (fun x v => Host.reduce IntOp.andi x v reducesTo_S90x90_S_d0_1 h_S_) main_v46 main_c_17
  let main_v48 : IVec S_ 1 := andi main_v43 main_v47
  let main_v49 : FVec F S32x90 .f32 := Host.absf main_arg12
  let main_cst_18 : FVec F S_ .f32 := constant S_ .f32 0x7F800000#32
  let main_v50 : FVec F S32x90 .f32 := broadcastInDim S32x90 ![] bcast_S_S32x90 main_cst_18
  fn_part3 (F := F) main_arg13 main_arg14 main_arg15 main_v48 main_v49 main_v50

def fn_part1 {F : FTy → Type} [FloatOps F] (main_arg6 : FVec F S90x90 .f32) (main_arg7 : FVec F S90 .f32) (main_arg8 : FVec F S90x90 .f32) (main_arg9 : FVec F S90x90 .f32) (main_arg10 : FVec F S90 .f32) (main_arg11 : FVec F S90x90 .f32) (main_arg12 : FVec F S32x90 .f32) (main_arg13 : FVec F S32 .f32) (main_arg14 : FVec F S1x32 .f32) (main_arg15 : FVec F S1 .f32) (main_v13 : IVec S_ 1) (main_v16 : IVec S90x90 1) : IVec S_ 1 :=
  let main_c_5 : IVec S_ 1 := constantI S_ 1 1#1
  let main_v17 : IVec S_ 1 := (fun x v => Host.reduce IntOp.andi x v reducesTo_S90x90_S_d0_1 h_S_) main_v16 main_c_5
  let main_v18 : IVec S_ 1 := andi main_v13 main_v17
  let main_v19 : FVec F S90x90 .f32 := Host.absf main_arg6
  let main_cst_6 : FVec F S_ .f32 := constant S_ .f32 0x7F800000#32
  let main_v20 : FVec F S90x90 .f32 := broadcastInDim S90x90 ![] bcast_S_S90x90 main_cst_6
  let main_v21 : IVec S90x90 1 := cmpf .olt main_v19 main_v20
  let main_c_7 : IVec S_ 1 := constantI S_ 1 1#1
  let main_v22 : IVec S_ 1 := (fun x v => Host.reduce IntOp.andi x v reducesTo_S90x90_S_d0_1 h_S_) main_v21 main_c_7
  let main_v23 : IVec S_ 1 := andi main_v18 main_v22
  let main_v24 : FVec F S90 .f32 := Host.absf main_arg7
  let main_cst_8 : FVec F S_ .f32 := constant S_ .f32 0x7F800000#32
  let main_v25 : FVec F S90 .f32 := broadcastInDim S90 ![] bcast_S_S90 main_cst_8
  let main_v26 : IVec S90 1 := cmpf .olt main_v24 main_v25
  let main_c_9 : IVec S_ 1 := constantI S_ 1 1#1
  let main_v27 : IVec S_ 1 := (fun x v => Host.reduce IntOp.andi x v reducesTo_S90_S_d0 h_S_) main_v26 main_c_9
  let main_v28 : IVec S_ 1 := andi main_v23 main_v27
  let main_v29 : FVec F S90x90 .f32 := Host.absf main_arg8
  let main_cst_10 : FVec F S_ .f32 := constant S_ .f32 0x7F800000#32
  let main_v30 : FVec F S90x90 .f32 := broadcastInDim S90x90 ![] bcast_S_S90x90 main_cst_10
  let main_v31 : IVec S90x90 1 := cmpf .olt main_v29 main_v30
  let main_c_11 : IVec S_ 1 := constantI S_ 1 1#1
  let main_v32 : IVec S_ 1 := (fun x v => Host.reduce IntOp.andi x v reducesTo_S90x90_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x90 .f32) (main_arg1 : IVec S2x800000 32) (main_arg2 : IVec S50000 32) (main_arg3 : FVec F S90x90 .f32) (main_arg4 : FVec F S90 .f32) (main_arg5 : FVec F S90x90 .f32) (main_arg6 : FVec F S90x90 .f32) (main_arg7 : FVec F S90 .f32) (main_arg8 : FVec F S90x90 .f32) (main_arg9 : FVec F S90x90 .f32) (main_arg10 : FVec F S90 .f32) (main_arg11 : FVec F S90x90 .f32) (main_arg12 : FVec F S32x90 .f32) (main_arg13 : FVec F S32 .f32) (main_arg14 : FVec F S1x32 .f32) (main_arg15 : FVec F S1 .f32) : IVec S_ 1 :=
  let main_v0 : FVec F S50000x90 .f32 := Host.absf main_arg0
  let main_cst : FVec F S_ .f32 := constant S_ .f32 0x7F800000#32
  let main_v1 : FVec F S50000x90 .f32 := broadcastInDim S50000x90 ![] bcast_S_S50000x90 main_cst
  let main_v2 : IVec S50000x90 1 := cmpf .olt main_v0 main_v1
  let main_c : IVec S_ 1 := constantI S_ 1 1#1
  let main_v3 : IVec S_ 1 := (fun x v => Host.reduce IntOp.andi x v reducesTo_S50000x90_S_d0_1 h_S_) main_v2 main_c
  let main_v4 : FVec F S90x90 .f32 := Host.absf main_arg3
  let main_cst_0 : FVec F S_ .f32 := constant S_ .f32 0x7F800000#32
  let main_v5 : FVec F S90x90 .f32 := broadcastInDim S90x90 ![] bcast_S_S90x90 main_cst_0
  let main_v6 : IVec S90x90 1 := cmpf .olt main_v4 main_v5
  let main_c_1 : IVec S_ 1 := constantI S_ 1 1#1
  let main_v7 : IVec S_ 1 := (fun x v => Host.reduce IntOp.andi x v reducesTo_S90x90_S_d0_1 h_S_) main_v6 main_c_1
  let main_v8 : IVec S_ 1 := andi main_v3 main_v7
  let main_v9 : FVec F S90 .f32 := Host.absf main_arg4
  let main_cst_2 : FVec F S_ .f32 := constant S_ .f32 0x7F800000#32
  let main_v10 : FVec F S90 .f32 := broadcastInDim S90 ![] bcast_S_S90 main_cst_2
  let main_v11 : IVec S90 1 := cmpf .olt main_v9 main_v10
  let main_c_3 : IVec S_ 1 := constantI S_ 1 1#1
  let main_v12 : IVec S_ 1 := (fun x v => Host.reduce IntOp.andi x v reducesTo_S90_S_d0 h_S_) main_v11 main_c_3
  let main_v13 : IVec S_ 1 := andi main_v8 main_v12
  let main_v14 : FVec F S90x90 .f32 := Host.absf main_arg5
  let main_cst_4 : FVec F S_ .f32 := constant S_ .f32 0x7F800000#32
  let main_v15 : FVec F S90x90 .f32 := broadcastInDim S90x90 ![] bcast_S_S90x90 main_cst_4
  let main_v16 : IVec S90x90 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x90 : Shape := ⟨2, ![50000, 90]⟩
abbrev S2x800000 : Shape := ⟨2, ![2, 800000]⟩
abbrev S50000 : Shape := ⟨1, ![50000]⟩
abbrev S90x90 : Shape := ⟨2, ![90, 90]⟩
abbrev S90 : Shape := ⟨1, ![90]⟩
abbrev S32x90 : Shape := ⟨2, ![32, 90]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x90 : Shape := ⟨2, ![800000, 90]⟩
abbrev S1x90 : Shape := ⟨2, ![1, 90]⟩
abbrev S2000x90 : Shape := ⟨2, ![2000, 90]⟩
abbrev S2000x1 : Shape := ⟨2, ![2000, 1]⟩
abbrev S500x90 : Shape := ⟨2, ![500, 90]⟩
abbrev S500x1 : Shape := ⟨2, ![500, 1]⟩
abbrev S90x32 : Shape := ⟨2, ![90, 32]⟩
abbrev S32x1 : Shape := ⟨2, ![32, 1]⟩
abbrev S1x1 : Shape := ⟨2, ![1, 1]⟩
abbrev S500x32 : Shape := ⟨2, ![500, 32]⟩

abbrev nBuf : Space → Nat
  | .hbm => 92
  | .vmem => 40
  | .smem => 0
  | _ => 0

abbrev bufTy : (tb : Table) → Fin (tcTables nBuf tb) → BufTy
  | .hbm, ⟨0, _⟩ => ⟨S50000x90, .f32⟩
  | .hbm, ⟨1, _⟩ => ⟨S2x800000, .i32⟩
  | .hbm, ⟨2, _⟩ => ⟨S50000, .i32⟩
  | .hbm, ⟨3, _⟩ => ⟨S90x90, .f32⟩
  | .hbm, ⟨4, _⟩ => ⟨S90, .f32⟩
  | .hbm, ⟨5, _⟩ => ⟨S90x90, .f32⟩
  | .hbm, ⟨6, _⟩ => ⟨S90x90, .f32⟩
  | .hbm, ⟨7, _⟩ => ⟨S90, .f32⟩
  | .hbm, ⟨8, _⟩ => ⟨S90x90, .f32⟩
  | .hbm, ⟨9, _⟩ => ⟨S90x90, .f32⟩
  | .hbm, ⟨10, _⟩ => ⟨S90, .f32⟩
  | .hbm, ⟨11, _⟩ => ⟨S90x90, .f32⟩
  | .hbm, ⟨12, _⟩ => ⟨S32x90, .f32⟩
  | .hbm, ⟨13, _⟩ => ⟨S32, .f32⟩
  | .hbm, ⟨14, _⟩ => ⟨S1x32, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000x1, .f32⟩
  | .hbm, ⟨22, _⟩ => ⟨S_, .f32⟩
  | .hbm, ⟨23, _⟩ => ⟨S50000x1, .f32⟩
  | .hbm, ⟨24, _⟩ => ⟨S800000x1, .i32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x90, .f32⟩
  | .hbm, ⟨35, _⟩ => ⟨S_, .f32⟩
  | .hbm, ⟨36, _⟩ => ⟨S50000x90, .f32⟩
  | .hbm, ⟨37, _⟩ => ⟨S800000x1, .i32⟩
  | .hbm, ⟨38, _⟩ => ⟨S50000x90, .f32⟩
  | .hbm, ⟨39, _⟩ => ⟨S90x90, .f32⟩
  | .hbm, ⟨40, _⟩ => ⟨S90x90, .f32⟩
  | .hbm, ⟨41, _⟩ => ⟨S1x90, .f32⟩
  | .hbm, ⟨42, _⟩ => ⟨S50000x90, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x90, .f32⟩
  | .hbm, ⟨52, _⟩ => ⟨S_, .f32⟩
  | .hbm, ⟨53, _⟩ => ⟨S50000x90, .f32⟩
  | .hbm, ⟨54, _⟩ => ⟨S800000x1, .i32⟩
  | .hbm, ⟨55, _⟩ => ⟨S50000x90, .f32⟩
  | .hbm, ⟨56, _⟩ => ⟨S90x90, .f32⟩
  | .hbm, ⟨57, _⟩ => ⟨S90x90, .f32⟩
  | .hbm, ⟨58, _⟩ => ⟨S1x90, .f32⟩
  | .hbm, ⟨59, _⟩ => ⟨S50000x90, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x90, .f32⟩
  | .hbm, ⟨69, _⟩ => ⟨S_, .f32⟩
  | .hbm, ⟨70, _⟩ => ⟨S50000x90, .f32⟩
  | .hbm, ⟨71, _⟩ => ⟨S800000x1, .i32⟩
  | .hbm, ⟨72, _⟩ => ⟨S50000x90, .f32⟩
  | .hbm, ⟨73, _⟩ => ⟨S90x90, .f32⟩
  | .hbm, ⟨74, _⟩ => ⟨S90x90, .f32⟩
  | .hbm, ⟨75, _⟩ => ⟨S1x90, .f32⟩
  | .hbm, ⟨76, _⟩ => ⟨S50000x90, .f32⟩
  | .hbm, ⟨77, _⟩ => ⟨S_, .f32⟩
  | .hbm, ⟨78, _⟩ => ⟨S500x90, .f32⟩
  | .hbm, ⟨79, _⟩ => ⟨S50000x1, .i32⟩
  | .hbm, ⟨80, _⟩ => ⟨S500x90, .f32⟩
  | .hbm, ⟨81, _⟩ => ⟨S_, .f32⟩
  | .hbm, ⟨82, _⟩ => ⟨S50000x1, .f32⟩
  | .hbm, ⟨83, _⟩ => ⟨S_, .f32⟩
  | .hbm, ⟨84, _⟩ => ⟨S500x1, .f32⟩
  | .hbm, ⟨85, _⟩ => ⟨S50000x1, .i32⟩
  | .hbm, ⟨86, _⟩ => ⟨S500x1, .f32⟩
  | .hbm, ⟨87, _⟩ => ⟨S90x32, .f32⟩
  | .hbm, ⟨88, _⟩ => ⟨S32x1, .f32⟩
  | .hbm, ⟨89, _⟩ => ⟨S1x32, .f32⟩
  | .hbm, ⟨90, _⟩ => ⟨S1x1, .f32⟩
  | .hbm, ⟨91, _⟩ => ⟨S500x1, .f32⟩
  | .local _ .vmem, ⟨0, _⟩ => ⟨S2000x90, .f32⟩
  | .local _ .vmem, ⟨1, _⟩ => ⟨S2000x90, .f32⟩
  | .local _ .vmem, ⟨2, _⟩ => ⟨S2000x90, .f32⟩
  | .local _ .vmem, ⟨3, _⟩ => ⟨S2000x90, .f32⟩
  | .local _ .vmem, ⟨4, _⟩ => ⟨S2000x1, .f32⟩
  | .local _ .vmem, ⟨5, _⟩ => ⟨S2000x1, .f32⟩
  | .local _ .vmem, ⟨6, _⟩ => ⟨S90x90, .f32⟩
  | .local _ .vmem, ⟨7, _⟩ => ⟨S1x90, .f32⟩
  | .local _ .vmem, ⟨8, _⟩ => ⟨S90x90, .f32⟩
  | .local _ .vmem, ⟨9, _⟩ => ⟨S2000x90, .f32⟩
  | .local _ .vmem, ⟨10, _⟩ => ⟨S2000x90, .f32⟩
  | .local _ .vmem, ⟨11, _⟩ => ⟨S2000x90, .f32⟩
  | .local _ .vmem, ⟨12, _⟩ => ⟨S2000x90, .f32⟩
  | .local _ .vmem, ⟨13, _⟩ => ⟨S2000x90, .f32⟩
  | .local _ .vmem, ⟨14, _⟩ => ⟨S2000x90, .f32⟩
  | .local _ .vmem, ⟨15, _⟩ => ⟨S2000x1, .f32⟩
  | .local _ .vmem, ⟨16, _⟩ => ⟨S2000x1, .f32⟩
  | .local _ .vmem, ⟨17, _⟩ => ⟨S90x90, .f32⟩
  | .local _ .vmem, ⟨18, _⟩ => ⟨S1x90, .f32⟩
  | .local _ .vmem, ⟨19, _⟩ => ⟨S90x90, .f32⟩
  | .local _ .vmem, ⟨20, _⟩ => ⟨S2000x90, .f32⟩
  | .local _ .vmem, ⟨21, _⟩ => ⟨S2000x90, .f32⟩
  | .local _ .vmem, ⟨22, _⟩ => ⟨S2000x90, .f32⟩
  | .local _ .vmem, ⟨23, _⟩ => ⟨S2000x90, .f32⟩
  | .local _ .vmem, ⟨24, _⟩ => ⟨S2000x90, .f32⟩
  | .local _ .vmem, ⟨25, _⟩ => ⟨S2000x90, .f32⟩
  | .local _ .vmem, ⟨26, _⟩ => ⟨S2000x1, .f32⟩
  | .local _ .vmem, ⟨27, _⟩ => ⟨S2000x1, .f32⟩
  | .local _ .vmem, ⟨28, _⟩ => ⟨S90x90, .f32⟩
  | .local _ .vmem, ⟨29, _⟩ => ⟨S1x90, .f32⟩
  | .local _ .vmem, ⟨30, _⟩ => ⟨S90x90, .f32⟩
  | .local _ .vmem, ⟨31, _⟩ => ⟨S2000x90, .f32⟩
  | .local _ .vmem, ⟨32, _⟩ => ⟨S2000x90, .f32⟩
  | .local _ .vmem, ⟨33, _⟩ => ⟨S500x90, .f32⟩
  | .local _ .vmem, ⟨34, _⟩ => ⟨S500x1, .f32⟩
  | .local _ .vmem, ⟨35, _⟩ => ⟨S90x32, .f32⟩
  | .local _ .vmem, ⟨36, _⟩ => ⟨S1x32, .f32⟩
  | .local _ .vmem, ⟨37, _⟩ => ⟨S32x1, .f32⟩
  | .local _ .vmem, ⟨38, _⟩ => ⟨S1x1, .f32⟩
  | .local _ .vmem, ⟨39, _⟩ => ⟨S500x1, .f32⟩
  | _, _ => ⟨S50000x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x90 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S90x90 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x90 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S90x90 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x90 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x90 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x90 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S90x90 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x90 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S90x90 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x90 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x90 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x90 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S90x90 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x90 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S90x90 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x90 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S500x90 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S500x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S90x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S500x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x90 : S_.BroadcastsInDim S50000x90 (![] : Fin 0 → Fin S50000x90.rank)
  transposes_S90x90_S90x90_1_0 : S90x90.Transposes [1, 0] S90x90
  shapeCasts_S90_S1x90 : S90.ShapeCasts S1x90
  inb_S2000x90_S2000x90_0_0 : ∀ a, (![0, 0] : Fin 2 → Nat) a + S2000x90.size a ≤ S2000x90.size a
  h_S2000x90 : 0 < S2000x90.numel
  shapeCasts_S2000x90_S2000x90 : S2000x90.ShapeCasts S2000x90
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x90 : S2000x1.Broadcasts S2000x90
  bitsLt_bf16_f32 : FTy.bits .bf16 < FTy.bits .f32
  inb_S90x90_S90x90_0_0 : ∀ a, (![0, 0] : Fin 2 → Nat) a + S90x90.size a ≤ S90x90.size a
  h_S90x90 : 0 < S90x90.numel
  shapeCasts_S90x90_S90x90 : S90x90.ShapeCasts S90x90
  inb_S1x90_S1x90_0_0 : ∀ a, (![0, 0] : Fin 2 → Nat) a + S1x90.size a ≤ S1x90.size a
  h_S1x90 : 0 < S1x90.numel
  shapeCasts_S1x90_S1x90 : S1x90.ShapeCasts S1x90
  broadcasts_S1x90_S2000x90 : S1x90.Broadcasts S2000x90
  bcast_S_S500x90 : S_.BroadcastsInDim S500x90 (![] : Fin 0 → Fin S500x90.rank)
  bcast_S50000_S50000x1_0 : S50000.BroadcastsInDim S50000x1 (![0] : Fin 1 → Fin S50000x1.rank)
  bcast_S_S500x1 : S_.BroadcastsInDim S500x1 (![] : Fin 0 → Fin S500x1.rank)
  transposes_S32x90_S90x32_1_0 : S32x90.Transposes [1, 0] S90x32
  transposes_S1x32_S32x1_1_0 : S1x32.Transposes [1, 0] S32x1
  shapeCasts_S32_S1x32 : S32.ShapeCasts S1x32
  shapeCasts_S1_S1x1 : S1.ShapeCasts S1x1
  inb_S500x90_S500x90_0_0 : ∀ a, (![0, 0] : Fin 2 → Nat) a + S500x90.size a ≤ S500x90.size a
  h_S500x90 : 0 < S500x90.numel
  shapeCasts_S500x90_S500x90 : S500x90.ShapeCasts S500x90
  inb_S500x1_S500x1_0_0 : ∀ a, (![0, 0] : Fin 2 → Nat) a + S500x1.size a ≤ S500x1.size a
  h_S500x1 : 0 < S500x1.numel
  shapeCasts_S500x1_S500x1 : S500x1.ShapeCasts S500x1
  broadcasts_S500x1_S500x90 : S500x1.Broadcasts S500x90
  inb_S90x32_S90x32_0_0 : ∀ a, (![0, 0] : Fin 2 → Nat) a + S90x32.size a ≤ S90x32.size a
  h_S90x32 : 0 < S90x32.numel
  shapeCasts_S90x32_S90x32 : S90x32.ShapeCasts S90x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x32_S500x32 : S1x32.Broadcasts S500x32
  broadcasts_S1x1_S500x1 : S1x1.Broadcasts S500x1
  scatter_S50000x1_S800000x1_S800000x1_1_0_0_1_wf : ScatterDims.WF S50000x1 S800000x1 S800000x1 [1] [0] [0] 1
  gather_S50000x90_S800000x1_S800000x90_1_0_n_n_0_1_190_wf : GatherDims.WF S50000x90 S800000x1 S800000x90 [1] [0] [] [0] [] 1 ![1, 90]
  scatter_S50000x90_S800000x1_S800000x90_1_0_0_1_wf : ScatterDims.WF S50000x90 S800000x1 S800000x90 [1] [0] [0] 1
  dot_S2000x90_S90x90_S2000x90_1_0_0_1_n_n_wf : DotDims.WF S2000x90 S90x90 S2000x90 [1] [0] [0] [1] [] []
  scatter_S500x90_S50000x1_S50000x90_1_0_0_1_wf : ScatterDims.WF S500x90 S50000x1 S50000x90 [1] [0] [0] 1
  scatter_S500x1_S50000x1_S50000x1_1_0_0_1_wf : ScatterDims.WF S500x1 S50000x1 S50000x1 [1] [0] [0] 1
  dot_S500x90_S90x32_S500x32_1_0_0_1_n_n_wf : DotDims.WF S500x90 S90x32 S500x32 [1] [0] [0] [1] [] []
  dot_S500x32_S32x1_S500x1_1_0_0_1_n_n_wf : DotDims.WF S500x32 S32x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x90.size a ≤ S50000x90.size a
  hwx0_0 : ∀ i : grid0.Coords, EltTy.bits .f32 = 32 ∨ (Rect.block (s := S50000x90) S2000x90.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x90.size a ≤ S50000x90.size a
  hwx0_1 : ∀ i : grid0.Coords, EltTy.bits .f32 = 32 ∨ (Rect.block (s := S50000x90) S2000x90.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S90x90.size a ≤ S90x90.size a
  hwx0_3 : ∀ i : grid0.Coords, EltTy.bits .f32 = 32 ∨ (Rect.block (s := S90x90) S90x90.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x90.size a ≤ S1x90.size a
  hwx0_4 : ∀ i : grid0.Coords, EltTy.bits .f32 = 32 ∨ (Rect.block (s := S1x90) S1x90.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S90x90.size a ≤ S90x90.size a
  hwx0_5 : ∀ i : grid0.Coords, EltTy.bits .f32 = 32 ∨ (Rect.block (s := S90x90) S90x90.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x90.size a ≤ S50000x90.size a
  hwx0_6 : ∀ i : grid0.Coords, EltTy.bits .f32 = 32 ∨ (Rect.block (s := S50000x90) S2000x90.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x90.size a ≤ S50000x90.size a
  hwx1_0 : ∀ i : grid1.Coords, EltTy.bits .f32 = 32 ∨ (Rect.block (s := S50000x90) S2000x90.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x90.size a ≤ S50000x90.size a
  hwx1_1 : ∀ i : grid1.Coords, EltTy.bits .f32 = 32 ∨ (Rect.block (s := S50000x90) S2000x90.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S90x90.size a ≤ S90x90.size a
  hwx1_3 : ∀ i : grid1.Coords, EltTy.bits .f32 = 32 ∨ (Rect.block (s := S90x90) S90x90.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x90.size a ≤ S1x90.size a
  hwx1_4 : ∀ i : grid1.Coords, EltTy.bits .f32 = 32 ∨ (Rect.block (s := S1x90) S1x90.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S90x90.size a ≤ S90x90.size a
  hwx1_5 : ∀ i : grid1.Coords, EltTy.bits .f32 = 32 ∨ (Rect.block (s := S90x90) S90x90.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x90.size a ≤ S50000x90.size a
  hwx1_6 : ∀ i : grid1.Coords, EltTy.bits .f32 = 32 ∨ (Rect.block (s := S50000x90) S2000x90.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x90.size a ≤ S50000x90.size a
  hwx2_0 : ∀ i : grid2.Coords, EltTy.bits .f32 = 32 ∨ (Rect.block (s := S50000x90) S2000x90.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x90.size a ≤ S50000x90.size a
  hwx2_1 : ∀ i : grid2.Coords, EltTy.bits .f32 = 32 ∨ (Rect.block (s := S50000x90) S2000x90.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S90x90.size a ≤ S90x90.size a
  hwx2_3 : ∀ i : grid2.Coords, EltTy.bits .f32 = 32 ∨ (Rect.block (s := S90x90) S90x90.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x90.size a ≤ S1x90.size a
  hwx2_4 : ∀ i : grid2.Coords, EltTy.bits .f32 = 32 ∨ (Rect.block (s := S1x90) S1x90.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S90x90.size a ≤ S90x90.size a
  hwx2_5 : ∀ i : grid2.Coords, EltTy.bits .f32 = 32 ∨ (Rect.block (s := S90x90) S90x90.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x90.size a ≤ S50000x90.size a
  hwx2_6 : ∀ i : grid2.Coords, EltTy.bits .f32 = 32 ∨ (Rect.block (s := S50000x90) S2000x90.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S500x90.size a ≤ S500x90.size a
  hwx3_0 : ∀ i : grid3.Coords, EltTy.bits .f32 = 32 ∨ (Rect.block (s := S500x90) S500x90.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S500x1.size a ≤ S500x1.size a
  hwx3_1 : ∀ i : grid3.Coords, EltTy.bits .f32 = 32 ∨ (Rect.block (s := S500x1) S500x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S90x32.size a ≤ S90x32.size a
  hwx3_2 : ∀ i : grid3.Coords, EltTy.bits .f32 = 32 ∨ (Rect.block (s := S90x32) S90x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x1.size a ≤ S32x1.size a
  hwx3_4 : ∀ i : grid3.Coords, EltTy.bits .f32 = 32 ∨ (Rect.block (s := S32x1) S32x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S500x1.size a ≤ S500x1.size a
  hwx3_6 : ∀ i : grid3.Coords, EltTy.bits .f32 = 32 ∨ (Rect.block (s := S500x1) S500x1.size (cc3_transform_6 i) (hinb3_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x90_S800000x1_S800000x90_1_0_n_n_0_1_190 : GatherDims S50000x90 S800000x1 S800000x90 where
  offsetDims := [1]
  collapsedSliceDims := [0]
  operandBatchingDims := []
  startIndicesBatchingDims := []
  startIndexMap := [0]
  indexVectorDim := 1
  sliceSizes := ![1, 90]
  wf := gather_S50000x90_S800000x1_S800000x90_1_0_n_n_0_1_190_wf
def scatter_S50000x90_S800000x1_S800000x90_1_0_0_1 : ScatterDims S50000x90 S800000x1 S800000x90 where
  updateWindowDims := [1]
  insertedWindowDims := [0]
  scatterDimsToOperandDims := [0]
  indexVectorDim := 1
  wf := scatter_S50000x90_S800000x1_S800000x90_1_0_0_1_wf
def dot_S2000x90_S90x90_S2000x90_1_0_0_1_n_n : DotDims S2000x90 S90x90 S2000x90 where
  lhsContracting := [1]
  rhsContracting := [0]
  lhsNonContracting := [0]
  rhsNonContracting := [1]
  lhsBatch := []
  rhsBatch := []
  wf := dot_S2000x90_S90x90_S2000x90_1_0_0_1_n_n_wf
def scatter_S500x90_S50000x1_S50000x90_1_0_0_1 : ScatterDims S500x90 S50000x1 S50000x90 where
  updateWindowDims := [1]
  insertedWindowDims := [0]
  scatterDimsToOperandDims := [0]
  indexVectorDim := 1
  wf := scatter_S500x90_S50000x1_S50000x90_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x90_S90x32_S500x32_1_0_0_1_n_n : DotDims S500x90 S90x32 S500x32 where
  lhsContracting := [1]
  rhsContracting := [0]
  lhsNonContracting := [0]
  rhsNonContracting := [1]
  lhsBatch := []
  rhsBatch := []
  wf := dot_S500x90_S90x32_S500x32_1_0_0_1_n_n_wf
def dot_S500x32_S32x1_S500x1_1_0_0_1_n_n : DotDims S500x32 S32x1 S500x1 where
  lhsContracting := [1]
  rhsContracting := [0]
  lhsNonContracting := [0]
  rhsNonContracting := [1]
  lhsBatch := []
  rhsBatch := []
  wf := dot_S500x32_S32x1_S500x1_1_0_0_1_n_n_wf

abbrev win0_0 : Pipeline.Window sig grid0 :=
  Pipeline.Window.ofSpec (Memref.whole main_arg0) S2000x90.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x90.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S90x90.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x90.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S90x90.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S2000x90.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S2000x90.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x90.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S90x90.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x90.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S90x90.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S2000x90.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S2000x90.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x90.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S90x90.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x90.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S90x90.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S2000x90.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S500x90.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v56) S500x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S90x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S32x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S500x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x90 : Shape := ⟨2, ![50000, 90]⟩
abbrev S2x800000 : Shape := ⟨2, ![2, 800000]⟩
abbrev S50000 : Shape := ⟨1, ![50000]⟩
abbrev S90x90 : Shape := ⟨2, ![90, 90]⟩
abbrev S90 : Shape := ⟨1, ![90]⟩
abbrev S32x90 : Shape := ⟨2, ![32, 90]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x90 : Shape := ⟨2, ![800000, 90]⟩
abbrev S50000x1 : Shape := ⟨2, ![50000, 1]⟩
abbrev S1x90 : Shape := ⟨2, ![1, 90]⟩
abbrev S500x90 : Shape := ⟨2, ![500, 90]⟩
abbrev S500x1 : Shape := ⟨2, ![500, 1]⟩
abbrev S90x32 : Shape := ⟨2, ![90, 32]⟩
abbrev S500x32 : Shape := ⟨2, ![500, 32]⟩
abbrev S32x1 : Shape := ⟨2, ![32, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S50000x90, .f32⟩
  | 1 => ⟨S2x800000, .i32⟩
  | 2 => ⟨S50000, .i32⟩
  | 3 => ⟨S90x90, .f32⟩
  | 4 => ⟨S90, .f32⟩
  | 5 => ⟨S90x90, .f32⟩
  | 6 => ⟨S90x90, .f32⟩
  | 7 => ⟨S90, .f32⟩
  | 8 => ⟨S90x90, .f32⟩
  | 9 => ⟨S90x90, .f32⟩
  | 10 => ⟨S90, .f32⟩
  | 11 => ⟨S90x90, .f32⟩
  | 12 => ⟨S32x90, .f32⟩
  | 13 => ⟨S32, .f32⟩
  | 14 => ⟨S1x32, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x90, .f32⟩
  | 29 => ⟨S_, .f32⟩
  | 30 => ⟨S50000x90, .f32⟩
  | 31 => ⟨S800000x1, .i32⟩
  | 32 => ⟨S50000x90, .f32⟩
  | 33 => ⟨S_, .f32⟩
  | 34 => ⟨S800000x1, .f32⟩
  | 35 => ⟨S_, .f32⟩
  | 36 => ⟨S50000x1, .f32⟩
  | 37 => ⟨S800000x1, .i32⟩
  | 38 => ⟨S50000x1, .f32⟩
  | 39 => ⟨S_, .f32⟩
  | 40 => ⟨S50000x1, .f32⟩
  | 41 => ⟨S50000x1, .f32⟩
  | 42 => ⟨S50000x90, .f32⟩
  | 43 => ⟨S50000x90, .f32⟩
  | 44 => ⟨S90x90, .f32⟩
  | 45 => ⟨S50000x90, .f32⟩
  | 46 => ⟨S1x90, .f32⟩
  | 47 => ⟨S50000x90, .f32⟩
  | 48 => ⟨S50000x90, .f32⟩
  | 49 => ⟨S90x90, .f32⟩
  | 50 => ⟨S50000x90, .f32⟩
  | 51 => ⟨S50000x90, .f32⟩
  | 52 => ⟨S_, .f32⟩
  | 53 => ⟨S50000x90, .f32⟩
  | 54 => ⟨S50000x90, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x90, .f32⟩
  | 64 => ⟨S_, .f32⟩
  | 65 => ⟨S50000x90, .f32⟩
  | 66 => ⟨S800000x1, .i32⟩
  | 67 => ⟨S50000x90, .f32⟩
  | 68 => ⟨S_, .f32⟩
  | 69 => ⟨S800000x1, .f32⟩
  | 70 => ⟨S_, .f32⟩
  | 71 => ⟨S50000x1, .f32⟩
  | 72 => ⟨S800000x1, .i32⟩
  | 73 => ⟨S50000x1, .f32⟩
  | 74 => ⟨S_, .f32⟩
  | 75 => ⟨S50000x1, .f32⟩
  | 76 => ⟨S50000x1, .f32⟩
  | 77 => ⟨S50000x90, .f32⟩
  | 78 => ⟨S50000x90, .f32⟩
  | 79 => ⟨S90x90, .f32⟩
  | 80 => ⟨S50000x90, .f32⟩
  | 81 => ⟨S1x90, .f32⟩
  | 82 => ⟨S50000x90, .f32⟩
  | 83 => ⟨S50000x90, .f32⟩
  | 84 => ⟨S90x90, .f32⟩
  | 85 => ⟨S50000x90, .f32⟩
  | 86 => ⟨S50000x90, .f32⟩
  | 87 => ⟨S_, .f32⟩
  | 88 => ⟨S50000x90, .f32⟩
  | 89 => ⟨S50000x90, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x90, .f32⟩
  | 99 => ⟨S_, .f32⟩
  | 100 => ⟨S50000x90, .f32⟩
  | 101 => ⟨S800000x1, .i32⟩
  | 102 => ⟨S50000x90, .f32⟩
  | 103 => ⟨S_, .f32⟩
  | 104 => ⟨S800000x1, .f32⟩
  | 105 => ⟨S_, .f32⟩
  | 106 => ⟨S50000x1, .f32⟩
  | 107 => ⟨S800000x1, .i32⟩
  | 108 => ⟨S50000x1, .f32⟩
  | 109 => ⟨S_, .f32⟩
  | 110 => ⟨S50000x1, .f32⟩
  | 111 => ⟨S50000x1, .f32⟩
  | 112 => ⟨S50000x90, .f32⟩
  | 113 => ⟨S50000x90, .f32⟩
  | 114 => ⟨S90x90, .f32⟩
  | 115 => ⟨S50000x90, .f32⟩
  | 116 => ⟨S1x90, .f32⟩
  | 117 => ⟨S50000x90, .f32⟩
  | 118 => ⟨S50000x90, .f32⟩
  | 119 => ⟨S90x90, .f32⟩
  | 120 => ⟨S50000x90, .f32⟩
  | 121 => ⟨S50000x90, .f32⟩
  | 122 => ⟨S_, .f32⟩
  | 123 => ⟨S50000x90, .f32⟩
  | 124 => ⟨S50000x90, .f32⟩
  | 125 => ⟨S_, .f32⟩
  | 126 => ⟨S500x90, .f32⟩
  | 127 => ⟨S50000x1, .i32⟩
  | _ => ⟨S50000x90, .f32⟩

abbrev hbmTy0_1 (i : Nat) : BufTy := match i % 128 with
  | 0 => ⟨S500x90, .f32⟩
  | 1 => ⟨S_, .f32⟩
  | 2 => ⟨S50000x1, .f32⟩
  | 3 => ⟨S_, .f32⟩
  | 4 => ⟨S500x1, .f32⟩
  | 5 => ⟨S50000x1, .i32⟩
  | 6 => ⟨S500x1, .f32⟩
  | 7 => ⟨S_, .f32⟩
  | 8 => ⟨S500x1, .f32⟩
  | 9 => ⟨S500x1, .f32⟩
  | 10 => ⟨S500x90, .f32⟩
  | 11 => ⟨S500x90, .f32⟩
  | 12 => ⟨S90x32, .f32⟩
  | 13 => ⟨S500x32, .f32⟩
  | 14 => ⟨S1x32, .f32⟩
  | 15 => ⟨S500x32, .f32⟩
  | 16 => ⟨S500x32, .f32⟩
  | 17 => ⟨S_, .f32⟩
  | 18 => ⟨S500x32, .f32⟩
  | 19 => ⟨S500x32, .f32⟩
  | 20 => ⟨S32x1, .f32⟩
  | 21 => ⟨S500x1, .f32⟩
  | 22 => ⟨S1x1, .f32⟩
  | 23 => ⟨S500x1, .f32⟩
  | 24 => ⟨S500x1, .f32⟩
  | _ => ⟨S50000x90, .f32⟩

abbrev hbmTy (i : Nat) : BufTy := match i / 128 with
  | 0 => hbmTy0_0 i
  | 1 => hbmTy0_1 i
  | _ => ⟨S50000x90, .f32⟩

abbrev bufTy : (tb : Table) → Fin (tcTables nBuf tb) → BufTy
  | .hbm, ⟨i, _⟩ => hbmTy i
  | _, _ => ⟨S50000x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call0_cst : Ref sig .tc := ⟨.hbm, 52, rfl⟩
abbrev main_call0_v0 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call1_cst : Ref sig .tc := ⟨.hbm, 87, rfl⟩
abbrev main_call1_v0 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call2_cst : Ref sig .tc := ⟨.hbm, 122, rfl⟩
abbrev main_call2_v0 : Ref sig .tc := ⟨.hbm, 123, rfl⟩
abbrev main_v84 : Ref sig .tc := ⟨.hbm, 124, rfl⟩
abbrev main_cst_16 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_call3_cst : Ref sig .tc := ⟨.hbm, 145, rfl⟩
abbrev main_call3_v0 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x90 : S_.BroadcastsInDim S50000x90 (![] : Fin 0 → Fin S50000x90.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x90_0_1 : S50000x1.BroadcastsInDim S50000x90 (![0, 1] : Fin 2 → Fin S50000x90.rank)
  transposes_S90x90_S90x90_1_0 : S90x90.Transposes [1, 0] S90x90
  bcast_S90_S1x90_1 : S90.BroadcastsInDim S1x90 (![1] : Fin 1 → Fin S1x90.rank)
  bcast_S1x90_S50000x90_0_1 : S1x90.BroadcastsInDim S50000x90 (![0, 1] : Fin 2 → Fin S50000x90.rank)
  bcast_S_S500x90 : S_.BroadcastsInDim S500x90 (![] : Fin 0 → Fin S500x90.rank)
  bcast_S50000_S50000x1_0 : S50000.BroadcastsInDim S50000x1 (![0] : Fin 1 → Fin S50000x1.rank)
  bcast_S_S500x1 : S_.BroadcastsInDim S500x1 (![] : Fin 0 → Fin S500x1.rank)
  bcast_S500x1_S500x90_0_1 : S500x1.BroadcastsInDim S500x90 (![0, 1] : Fin 2 → Fin S500x90.rank)
  transposes_S32x90_S90x32_1_0 : S32x90.Transposes [1, 0] S90x32
  bcast_S32_S1x32_1 : S32.BroadcastsInDim S1x32 (![1] : Fin 1 → Fin S1x32.rank)
  bcast_S1x32_S500x32_0_1 : S1x32.BroadcastsInDim S500x32 (![0, 1] : Fin 2 → Fin S500x32.rank)
  bcast_S_S500x32 : S_.BroadcastsInDim S500x32 (![] : Fin 0 → Fin S500x32.rank)
  transposes_S1x32_S32x1_1_0 : S1x32.Transposes [1, 0] S32x1
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  gather_S50000x90_S800000x1_S800000x90_1_0_n_n_0_1_190_wf : GatherDims.WF S50000x90 S800000x1 S800000x90 [1] [0] [] [0] [] 1 ![1, 90]
  scatter_S50000x90_S800000x1_S800000x90_1_0_0_1_wf : ScatterDims.WF S50000x90 S800000x1 S800000x90 [1] [0] [0] 1
  scatter_S50000x1_S800000x1_S800000x1_1_0_0_1_wf : ScatterDims.WF S50000x1 S800000x1 S800000x1 [1] [0] [0] 1
  dot_S50000x90_S90x90_S50000x90_1_0_0_1_n_n_wf : DotDims.WF S50000x90 S90x90 S50000x90 [1] [0] [0] [1] [] []
  scatter_S500x90_S50000x1_S50000x90_1_0_0_1_wf : ScatterDims.WF S500x90 S50000x1 S50000x90 [1] [0] [0] 1
  scatter_S500x1_S50000x1_S50000x1_1_0_0_1_wf : ScatterDims.WF S500x1 S50000x1 S50000x1 [1] [0] [0] 1
  dot_S500x90_S90x32_S500x32_1_0_0_1_n_n_wf : DotDims.WF S500x90 S90x32 S500x32 [1] [0] [0] [1] [] []
  dot_S500x32_S32x1_S500x1_1_0_0_1_n_n_wf : DotDims.WF S500x32 S32x1 S500x1 [1] [0] [0] [1] [] []

variable [Facts₀]

def gather_S50000x90_S800000x1_S800000x90_1_0_n_n_0_1_190 : GatherDims S50000x90 S800000x1 S800000x90 where
  offsetDims := [1]
  collapsedSliceDims := [0]
  operandBatchingDims := []
  startIndicesBatchingDims := []
  startIndexMap := [0]
  indexVectorDim := 1
  sliceSizes := ![1, 90]
  wf := gather_S50000x90_S800000x1_S800000x90_1_0_n_n_0_1_190_wf
def scatter_S50000x90_S800000x1_S800000x90_1_0_0_1 : ScatterDims S50000x90 S800000x1 S800000x90 where
  updateWindowDims := [1]
  insertedWindowDims := [0]
  scatterDimsToOperandDims := [0]
  indexVectorDim := 1
  wf := scatter_S50000x90_S800000x1_S800000x90_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x90_S90x90_S50000x90_1_0_0_1_n_n : DotDims S50000x90 S90x90 S50000x90 where
  lhsContracting := [1]
  rhsContracting := [0]
  lhsNonContracting := [0]
  rhsNonContracting := [1]
  lhsBatch := []
  rhsBatch := []
  wf := dot_S50000x90_S90x90_S50000x90_1_0_0_1_n_n_wf
def scatter_S500x90_S50000x1_S50000x90_1_0_0_1 : ScatterDims S500x90 S50000x1 S50000x90 where
  updateWindowDims := [1]
  insertedWindowDims := [0]
  scatterDimsToOperandDims := [0]
  indexVectorDim := 1
  wf := scatter_S500x90_S50000x1_S50000x90_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x90_S90x32_S500x32_1_0_0_1_n_n : DotDims S500x90 S90x32 S500x32 where
  lhsContracting := [1]
  rhsContracting := [0]
  lhsNonContracting := [0]
  rhsNonContracting := [1]
  lhsBatch := []
  rhsBatch := []
  wf := dot_S500x90_S90x32_S500x32_1_0_0_1_n_n_wf
def dot_S500x32_S32x1_S500x1_1_0_0_1_n_n : DotDims S500x32 S32x1 S500x1 where
  lhsContracting := [1]
  rhsContracting := [0]
  lhsNonContracting := [0]
  rhsNonContracting := [1]
  lhsBatch := []
  rhsBatch := []
  wf := dot_S500x32_S32x1_S500x1_1_0_0_1_n_n_wf

class Facts : Prop extends Facts₀ where

variable [Facts]
-- ==== Proof.KDot.lean ====
/-
  A block product of the kernel read at one entry.

  The layer kernel multiplies a 2000 by 90 block by a 90 by 90 weight matrix into a zero accumulator. Over the
  extended reals that product, at row `p` and column `q`, is the plain sum over the 90 input features `k` of
  `a[p,k] · w[k,q]`: the contraction index of the product has one axis of extent 90, and the operand indices
  it names are `(p, k)` on the left and `(k, q)` on the right.
-/
import proofs.«430828_j23476291240659_1_alg».proof.Proof.Gen.KernelIdeal
import Idealize.ShloMosaic.PureOps.Ideal.Laws
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx
open scoped BigOperators

/-- The left operand's row is the result's row. -/
theorem lhs_row (i : S2000x90.Idx) (q : dot_S2000x90_S90x90_S2000x90_1_0_0_1_n_n.contr.Idx) :
    (dot_S2000x90_S90x90_S2000x90_1_0_0_1_n_n.lhsIdx i q 0).val = (i 0).val := by
  unfold DotDims.lhsIdx
  rw [dif_neg (show ¬(0 : Fin S2000x90.rank) ∈ dot_S2000x90_S90x90_S2000x90_1_0_0_1_n_n.lhsBatch by decide), dif_pos (show (0 : Fin S2000x90.rank) ∈ dot_S2000x90_S90x90_S2000x90_1_0_0_1_n_n.lhsNonContracting by decide)]
  rfl
/-- The left operand's column is the contracted feature. -/
theorem lhs_col (i : S2000x90.Idx) (q : dot_S2000x90_S90x90_S2000x90_1_0_0_1_n_n.contr.Idx) :
    (dot_S2000x90_S90x90_S2000x90_1_0_0_1_n_n.lhsIdx i q 1).val = (q ⟨0, by decide⟩).val :=
  dot_S2000x90_S90x90_S2000x90_1_0_0_1_n_n.lhsIdx_val_of_single rfl i q
/-- The right operand's row is the contracted feature. -/
theorem rhs_row (i : S2000x90.Idx) (q : dot_S2000x90_S90x90_S2000x90_1_0_0_1_n_n.contr.Idx) :
    (dot_S2000x90_S90x90_S2000x90_1_0_0_1_n_n.rhsIdx i q 0).val = (q ⟨0, by decide⟩).val :=
  dot_S2000x90_S90x90_S2000x90_1_0_0_1_n_n.rhsIdx_val_of_single rfl i q
/-- The right operand's column is the result's column. -/
theorem rhs_col (i : S2000x90.Idx) (q : dot_S2000x90_S90x90_S2000x90_1_0_0_1_n_n.contr.Idx) :
    (dot_S2000x90_S90x90_S2000x90_1_0_0_1_n_n.rhsIdx i q 1).val = (i 1).val := by
  unfold DotDims.rhsIdx
  rw [dif_neg (show ¬(1 : Fin S90x90.rank) ∈ dot_S2000x90_S90x90_S2000x90_1_0_0_1_n_n.rhsBatch by decide), dif_pos (show (1 : Fin S90x90.rank) ∈ dot_S2000x90_S90x90_S2000x90_1_0_0_1_n_n.rhsNonContracting by decide)]
  rfl

/-- The block product into a zero accumulator, at row `p` and column `q`, is `∑ₖ a[p,k] · w[k,q]`. -/
theorem blockProduct_apply {φ₁ φ₂ : FTy} (a : FVec Ideal S2000x90 φ₁) (w : FVec Ideal S90x90 φ₂) (p : Fin 2000) (q : Fin 90) :
    matmul dot_S2000x90_S90x90_S2000x90_1_0_0_1_n_n none a w (constant S2000x90 .f32 0x00000000#32) (ix2 p q)
      = ∑ k : Fin 90, a (ix2 p k) * w (ix2 k q) := by
  simp only [matmul]
  rw [Ideal.matmul_constant_zero_apply, ← Equiv.sum_comp (contrEquiv1 dot_S2000x90_S90x90_S2000x90_1_0_0_1_n_n 90 rfl rfl).symm]
  refine Finset.sum_congr rfl fun k _ => ?_
  have hk := contrEquiv1_symm_val dot_S2000x90_S90x90_S2000x90_1_0_0_1_n_n 90 rfl rfl k
  have el : dot_S2000x90_S90x90_S2000x90_1_0_0_1_n_n.lhsIdx (ix2 p q) ((contrEquiv1 dot_S2000x90_S90x90_S2000x90_1_0_0_1_n_n 90 rfl rfl).symm k) = ix2 p k := funext fun ax => Fin.ext (by
    match ax with
    | ⟨0, _⟩ => exact lhs_row _ _
    | ⟨1, _⟩ => exact (lhs_col _ _).trans hk)
  have er : dot_S2000x90_S90x90_S2000x90_1_0_0_1_n_n.rhsIdx (ix2 p q) ((contrEquiv1 dot_S2000x90_S90x90_S2000x90_1_0_0_1_n_n 90 rfl rfl).symm k) = ix2 k q := funext fun ax => Fin.ext (by
    match ax with
    | ⟨0, _⟩ => exact (rhs_row _ _).trans hk
    | ⟨1, _⟩ => exact rhs_col _ _)
  rw [el, er]

end Cert.KernelIdeal.Blocks

end
-- ==== Proof.Spec.lean ====
/-
  One layer of mean-aggregating graph convolution, entry by entry, over the extended reals.

  For a block of `n` nodes with feature width 90: `x` holds the nodes' own features, `s` the sum of their
  in-neighbours' features, `cnt` the in-degree (one column), `wl` and `wr` the two weight matrices already laid
  out as [input feature, output feature], and `b` the bias as one row. The layer's entry at node `r`, output
  feature `c` is

      max ( (∑ₖ (s[r,k] / max(cnt[r], 1)) · wl[k,c])  +  b[c]  +  ∑ₖ x[r,k] · wr[k,c] ,  0 ).

  The sums are written in this association because it is the one both programs compute: the aggregated term and
  the bias are added first, the self term after. A row of the result depends only on the same row of `x`, `s` and
  `cnt`, so the layer on 50000 nodes restricted to 2000 consecutive rows is the layer on those rows.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- The float word of 1.0, read as an extended real. It is the same word in both programs and is never evaluated. -/
abbrev one : EReal := Ideal.ofBits .f32 0x3F800000#32
/-- The float word of 0.0, read as an extended real. -/
abbrev zero : EReal := Ideal.ofBits .f32 0x00000000#32

/-- The shape of an `n` by `p` matrix. -/
abbrev Mat (n p : Nat) : Shape := ⟨2, ![n, p]⟩

/-- The aggregated neighbour feature `k` of node `r`: the neighbour sum divided by the in-degree clamped below at one. -/
def meanAt {n : Nat} (s : (Mat n 90).Idx → EReal) (cnt : (Mat n 1).Idx → EReal) (r : Fin n) (k : Fin 90) : EReal :=
  Ideal.div (s (ix2 r k)) (max (cnt (ix2 r (0 : Fin 1))) one)

/-- One graph-convolution layer on `n` nodes, entry by entry. -/
def sageLayer (n : Nat) (x s : (Mat n 90).Idx → EReal) (cnt : (Mat n 1).Idx → EReal)
    (wl : (Mat 90 90).Idx → EReal) (b : (Mat 1 90).Idx → EReal) (wr : (Mat 90 90).Idx → EReal) :
    (Mat n 90).Idx → EReal :=
  fun i => max (((∑ k : Fin 90, meanAt s cnt (i 0) k * wl (ix2 k (i 1))) + b (ix2 (0 : Fin 1) (i 1)))
      + ∑ k : Fin 90, x (ix2 (i 0) k) * wr (ix2 k (i 1))) zero

/-- The layer at explicit coordinates. -/
theorem sageLayer_ix2 (n : Nat) (x s : (Mat n 90).Idx → EReal) (cnt : (Mat n 1).Idx → EReal)
    (wl : (Mat 90 90).Idx → EReal) (b : (Mat 1 90).Idx → EReal) (wr : (Mat 90 90).Idx → EReal) (r : Fin n) (c : Fin 90) :
    sageLayer n x s cnt wl b wr (ix2 r c)
      = max (((∑ k : Fin 90, meanAt s cnt r k * wl (ix2 k c)) + b (ix2 (0 : Fin 1) c))
          + ∑ k : Fin 90, x (ix2 r k) * wr (ix2 k c)) zero := rfl

/-- A row of the layer depends only on the same row of the node arrays: if row `p` of `x`, `s`, `cnt` is row `P` of
    `X`, `S`, `C`, and the weights and bias agree where column `q` reads them, the two layers agree at `(p, q)` and `(P, q)`. -/
theorem sageLayer_rows (n N : Nat) (x s : (Mat n 90).Idx → EReal) (cnt : (Mat n 1).Idx → EReal)
    (wl : (Mat 90 90).Idx → EReal) (b : (Mat 1 90).Idx → EReal) (wr : (Mat 90 90).Idx → EReal)
    (X S : (Mat N 90).Idx → EReal) (C : (Mat N 1).Idx → EReal)
    (Wl : (Mat 90 90).Idx → EReal) (B : (Mat 1 90).Idx → EReal) (Wr : (Mat 90 90).Idx → EReal)
    (p : Fin n) (P : Fin N) (q : Fin 90)
    (hx : ∀ k : Fin 90, x (ix2 p k) = X (ix2 P k)) (hs : ∀ k : Fin 90, s (ix2 p k) = S (ix2 P k))
    (hc : cnt (ix2 p (0 : Fin 1)) = C (ix2 P (0 : Fin 1)))
    (hwl : ∀ k : Fin 90, wl (ix2 k q) = Wl (ix2 k q)) (hb : b (ix2 (0 : Fin 1) q) = B (ix2 (0 : Fin 1) q))
    (hwr : ∀ k : Fin 90, wr (ix2 k q) = Wr (ix2 k q)) :
    sageLayer n x s cnt wl b wr (ix2 p q) = sageLayer N X S C Wl B Wr (ix2 P q) := by
  rw [sageLayer_ix2, sageLayer_ix2]
  unfold meanAt
  simp only [hx, hs, hc, hwl, hb, hwr]

end Cert.Sage

end
-- ==== Proof.LibBroadcast.lean ====
/-
  Broadcasts of one column, of one row and of a scalar, read at an entry of the result.

  A column `[a, 1]` broadcast along the second axis reads, at `(p, c)`, the column's entry at row `p`; a row
  `[1, b]` broadcast along the first axis reads the row's entry at column `c`; a scalar constant broadcast to
  any shape reads the scalar. Stated for both spellings of a broadcast that the two programs use (the trailing-axes
  form and the form that names the target axis of every source axis).
-/
import Idealize.ShloMosaic.PureOps.Ideal
import Idealize.ShloMosaic.Lib.Pipeline.Value
import Idealize.ShloMosaic.Lib.ValueIdx
import Idealize.ShloMosaic.Lib.ValueLayout

noncomputable section

namespace Cert.LibBroadcast

open Idealize.ShloMosaic Idealize.ShloMosaic.ValueIdx

variable {α : Type}

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column broadcast, spelt with the target axes `[0, 1]` named. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]`, spelt with the target axes `[0, 1]` named, reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` placed as the one row of `[1, b]` (its axis sent to axis 1) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- The two spellings of a column broadcast are one function. -/
theorem broadcastTo_col_eq_inDim {a b : ℕ} (v : (⟨2, ![a, 1]⟩ : Shape).Idx → α) (h : (⟨2, ![a, 1]⟩ : Shape).Broadcasts ⟨2, ![a, b]⟩)
    (h' : (⟨2, ![a, 1]⟩ : Shape).BroadcastsInDim ⟨2, ![a, b]⟩ ![0, 1]) :
    broadcastTo ⟨2, ![a, b]⟩ v h = broadcastInDim ⟨2, ![a, b]⟩ ![0, 1] h' v := by
  funext j
  obtain ⟨p, c, rfl⟩ : ∃ (p : Fin a) (c : Fin b), j = ix2 p c := ⟨j 0, j 1, eq_ix2 j⟩
  rw [broadcastTo_a1_ab_apply, broadcastInDim_a1_ab_apply]

/-- The two spellings of a row broadcast are one function. -/
theorem broadcastTo_row_eq_inDim {a b : ℕ} (v : (⟨2, ![1, b]⟩ : Shape).Idx → α) (h : (⟨2, ![1, b]⟩ : Shape).Broadcasts ⟨2, ![a, b]⟩)
    (h' : (⟨2, ![1, b]⟩ : Shape).BroadcastsInDim ⟨2, ![a, b]⟩ ![0, 1]) :
    broadcastTo ⟨2, ![a, b]⟩ v h = broadcastInDim ⟨2, ![a, b]⟩ ![0, 1] h' v := by
  funext j
  obtain ⟨p, c, rfl⟩ : ∃ (p : Fin a) (c : Fin b), j = ix2 p c := ⟨j 0, j 1, eq_ix2 j⟩
  rw [broadcastTo_1b_ab_apply, broadcastInDim_1b_ab_apply]

/-- A vector reshaped to one row and the same vector placed as the one row are one function. -/
theorem shapeCast_row_eq_inDim {b : ℕ} (v : (⟨1, ![b]⟩ : Shape).Idx → α) (h : (⟨1, ![b]⟩ : Shape).ShapeCasts ⟨2, ![1, b]⟩)
    (h' : (⟨1, ![b]⟩ : Shape).BroadcastsInDim ⟨2, ![1, b]⟩ ![1]) :
    shapeCast ⟨2, ![1, b]⟩ v h = broadcastInDim ⟨2, ![1, b]⟩ ![1] h' v := by
  funext j
  obtain ⟨u, c, rfl⟩ : ∃ (u : Fin 1) (c : Fin b), j = ix2 u c := ⟨j 0, j 1, eq_ix2 j⟩
  rw [shapeCast_a_1a_apply, broadcastInDim_b_1b_apply]

end Cert.LibBroadcast

end
-- ==== Proof.KPayload.lean ====
/-
  What a layer kernel stores is the layer of the specification on its block of 2000 nodes.

  The kernel body loads the block of node features, of neighbour sums and of in-degrees, the two weight matrices and
  the bias row; divides the sums by the in-degree clamped at one (broadcast along the features); narrows both
  operands of each product to the shorter float format, which over the extended reals changes nothing; forms the two
  block products into zero accumulators; adds the bias row (broadcast down the rows) to the first, then the second;
  and takes the maximum with zero. Entry `(p, q)` of that is the specification's entry: each block product is the
  plain sum over the 90 input features.
  The three layer kernels differ only by a shape cast of a block to its own shape, which is the identity.
-/
import proofs.«430828_j23476291240659_1_alg».proof.Proof.Gen.KernelIdeal.Skeleton
import proofs.«430828_j23476291240659_1_alg».proof.Proof.KDot
import proofs.«430828_j23476291240659_1_alg».proof.Proof.Spec
import proofs.«430828_j23476291240659_1_alg».proof.Proof.LibBroadcast
import Idealize.ShloMosaic.Lib.Pipeline.Value
import Idealize.ShloMosaic.Lib.ValueLayout

set_option maxRecDepth 16384

noncomputable section

namespace Cert.KernelIdeal.Blocks

open Cert.KernelIdeal Cert.KernelIdeal.Gen Idealize.ShloMosaic Idealize.ShloMosaic.ValueIdx
open scoped BigOperators

/-- The block of neighbour sums divided by the clamped in-degree column, at row `p` and feature `k`. -/
theorem mean_apply (s : Vec Ideal S2000x90 .f32) (cnt : Vec Ideal S2000x1 .f32) (p : Fin 2000) (k : Fin 90) :
    divf (F := Ideal) s (broadcastTo S2000x90 (maximumf (F := Ideal) cnt (broadcast S2000x1 (Scalar.ofBits (F := Ideal) .f32 0x3F800000#32))) broadcasts_S2000x1_S2000x90) (ix2 p k)
      = Sage.meanAt s cnt p k := by
  show Ideal.div (s (ix2 p k)) (broadcastTo S2000x90 (maximumf (F := Ideal) cnt (broadcast S2000x1 (Scalar.ofBits (F := Ideal) .f32 0x3F800000#32))) broadcasts_S2000x1_S2000x90 (ix2 p k)) = _
  rw [Cert.LibBroadcast.broadcastTo_a1_ab_apply]
  rfl

/-- The first layer kernel's stored value is the specification's layer on its blocks. -/
theorem layerBlock0 (x s : Vec Ideal S2000x90 .f32) (cnt : Vec Ideal S2000x1 .f32) (wl wr : Vec Ideal S90x90 .f32) (b : Vec Ideal S1x90 .f32) :
    k0_pay1 (F := Ideal) x s cnt wl wr b = Sage.sageLayer 2000 x s cnt wl b wr := by
  funext j
  obtain ⟨p, q, rfl⟩ : ∃ (p : Fin 2000) (q : Fin 90), j = ix2 p q := ⟨j 0, j 1, eq_ix2 j⟩
  rw [Sage.sageLayer_ix2]
  unfold k0_pay1
  simp only [shapeCast_self, maximumf_apply, addf_apply, broadcast_apply]
  rw [blockProduct_apply, blockProduct_apply, broadcastTo_1b_ab_apply]
  simp only [truncf_apply, mean_apply]
  rfl

/-- The second layer kernel's stored value is the specification's layer on its blocks. -/
theorem layerBlock1 (x s : Vec Ideal S2000x90 .f32) (cnt : Vec Ideal S2000x1 .f32) (wl wr : Vec Ideal S90x90 .f32) (b : Vec Ideal S1x90 .f32) :
    k1_pay1 (F := Ideal) x s cnt wl wr b = Sage.sageLayer 2000 x s cnt wl b wr := by
  funext j
  obtain ⟨p, q, rfl⟩ : ∃ (p : Fin 2000) (q : Fin 90), j = ix2 p q := ⟨j 0, j 1, eq_ix2 j⟩
  rw [Sage.sageLayer_ix2]
  unfold k1_pay1
  simp only [shapeCast_self, maximumf_apply, addf_apply, broadcast_apply]
  rw [blockProduct_apply, blockProduct_apply, broadcastTo_1b_ab_apply]
  simp only [truncf_apply, mean_apply]
  rfl

/-- The third layer kernel's stored value is the specification's layer on its blocks. -/
theorem layerBlock2 (x s : Vec Ideal S2000x90 .f32) (cnt : Vec Ideal S2000x1 .f32) (wl wr : Vec Ideal S90x90 .f32) (b : Vec Ideal S1x90 .f32) :
    k2_pay1 (F := Ideal) x s cnt wl wr b = Sage.sageLayer 2000 x s cnt wl b wr := by
  funext j
  obtain ⟨p, q, rfl⟩ : ∃ (p : Fin 2000) (q : Fin 90), j = ix2 p q := ⟨j 0, j 1, eq_ix2 j⟩
  rw [Sage.sageLayer_ix2]
  unfold k2_pay1
  simp only [shapeCast_self, maximumf_apply, addf_apply, broadcast_apply]
  rw [blockProduct_apply, blockProduct_apply, broadcastTo_1b_ab_apply]
  simp only [truncf_apply, mean_apply]
  rfl

end Cert.KernelIdeal.Blocks

end
-- ==== Proof.KLayer0.lean ====
/-
  The first layer kernel leaves its result array at the specification's layer of the arrays it was launched on.

  The kernel runs on a grid of 25 points; at point `t` it reads rows `2000·t … 2000·t + 1999` of the node
  features, of the neighbour sums and of the in-degree column, the two whole weight matrices and the whole bias row,
  and writes back rows `2000·t … 2000·t + 1999` of the result. What it writes back is the layer on those rows
  (KPayload.lean), and a row of the layer depends only on the same row of the three node arrays, so it is the same
  rows of the layer on all 50000 nodes. The 25 row blocks cover every row, hence the array ends holding the layer of
  the whole arrays. The contents `V` the region is entered from stay a parameter.
-/
import proofs.«430828_j23476291240659_1_alg».proof.Proof.Gen.KernelIdeal.Frame
import proofs.«430828_j23476291240659_1_alg».proof.Proof.KPayload

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the 25 points: the three node windows sit on the result's row block, the
    weights and the bias on their one block, and the result's row block number is at most 24. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 24 ∧ win0_6.index t (1 : Fin 2) = 0 :=
  (by decide +kernel : ∀ t : Fin grid0.N, _)

/-- Every row block is some point's. -/
theorem index_onto : ∀ q : Fin 25, ∃ t : Fin cfg0.N, win0_6.index t = ![q.val, 0] :=
  (by decide +kernel : ∀ q : Fin 25, ∃ t : Fin grid0.N, win0_6.index t = ![q.val, 0])

/-- A node window's block at point `t`, read at row `p` of the block, is the array at row `2000·(block number) + p`. -/
theorem read_x (c : Dev nD) (t : Fin cfg0.N) (p : Fin 2000) (k : Fin 90) (P : Fin 50000)
    (hP : P.val = win0_6.index t (0 : Fin 2) * 2000 + p.val) :
    iblk0 V c 0 t (ix2 p k) = V c main_arg0 (ix2 P k) := by
  obtain ⟨e0, e1, -⟩ := index_facts t
  show V c main_arg0 (((cfg0.win 0).blk t).view.emb (ix2 p k)) = V c main_arg0 (ix2 P k)
  refine congrArg (V c main_arg0) (funext fun a => Fin.ext ?_)
  match a with
  | ⟨0, _⟩ => show win0_0.index t (0 : Fin 2) * 2000 + 1 * p.val = P.val; omega
  | ⟨1, _⟩ => show win0_0.index t (1 : Fin 2) * 90 + 1 * k.val = k.val; omega

theorem read_s (c : Dev nD) (t : Fin cfg0.N) (p : Fin 2000) (k : Fin 90) (P : Fin 50000)
    (hP : P.val = win0_6.index t (0 : Fin 2) * 2000 + p.val) :
    iblk0 V c 1 t (ix2 p k) = V c main_v17 (ix2 P k) := by
  obtain ⟨-, -, e0, e1, -⟩ := index_facts t
  show V c main_v17 (((cfg0.win 1).blk t).view.emb (ix2 p k)) = V c main_v17 (ix2 P k)
  refine congrArg (V c main_v17) (funext fun a => Fin.ext ?_)
  match a with
  | ⟨0, _⟩ => show win0_1.index t (0 : Fin 2) * 2000 + 1 * p.val = P.val; omega
  | ⟨1, _⟩ => show win0_1.index t (1 : Fin 2) * 90 + 1 * k.val = k.val; omega

theorem read_cnt (c : Dev nD) (t : Fin cfg0.N) (p : Fin 2000) (P : Fin 50000)
    (hP : P.val = win0_6.index t (0 : Fin 2) * 2000 + p.val) :
    iblk0 V c 2 t (ix2 p (0 : Fin 1)) = V c main_v7 (ix2 P (0 : Fin 1)) := by
  obtain ⟨-, -, -, -, e0, e1, -⟩ := index_facts t
  show V c main_v7 (((cfg0.win 2).blk t).view.emb (ix2 p (0 : Fin 1))) = V c main_v7 (ix2 P (0 : Fin 1))
  refine congrArg (V c main_v7) (funext fun a => Fin.ext ?_)
  match a with
  | ⟨0, _⟩ => show win0_2.index t (0 : Fin 2) * 2000 + 1 * p.val = P.val; omega
  | ⟨1, _⟩ => show win0_2.index t (1 : Fin 2) * 1 + 1 * 0 = 0; omega

/-- A whole-array window's block is the array. -/
theorem read_wl (c : Dev nD) (t : Fin cfg0.N) (k q : Fin 90) : iblk0 V c 3 t (ix2 k q) = V c main_v18 (ix2 k q) := by
  obtain ⟨-, -, -, -, -, -, e0, e1, -⟩ := index_facts t
  show V c main_v18 (((cfg0.win 3).blk t).view.emb (ix2 k q)) = V c main_v18 (ix2 k q)
  refine congrArg (V c main_v18) (funext fun a => Fin.ext ?_)
  match a with
  | ⟨0, _⟩ => show win0_3.index t (0 : Fin 2) * 90 + 1 * k.val = k.val; omega
  | ⟨1, _⟩ => show win0_3.index t (1 : Fin 2) * 90 + 1 * q.val = q.val; omega

theorem read_b (c : Dev nD) (t : Fin cfg0.N) (q : Fin 90) : iblk0 V c 4 t (ix2 (0 : Fin 1) q) = V c main_v20 (ix2 (0 : Fin 1) q) := by
  obtain ⟨-, -, -, -, -, -, -, -, e0, e1, -⟩ := index_facts t
  show V c main_v20 (((cfg0.win 4).blk t).view.emb (ix2 (0 : Fin 1) q)) = V c main_v20 (ix2 (0 : Fin 1) q)
  refine congrArg (V c main_v20) (funext fun a => Fin.ext ?_)
  match a with
  | ⟨0, _⟩ => show win0_4.index t (0 : Fin 2) * 1 + 1 * 0 = 0; omega
  | ⟨1, _⟩ => show win0_4.index t (1 : Fin 2) * 90 + 1 * q.val = q.val; omega

theorem read_wr (c : Dev nD) (t : Fin cfg0.N) (k q : Fin 90) : iblk0 V c 5 t (ix2 k q) = V c main_v19 (ix2 k q) := by
  obtain ⟨-, -, -, -, -, -, -, -, -, -, e0, e1, -⟩ := index_facts t
  show V c main_v19 (((cfg0.win 5).blk t).view.emb (ix2 k q)) = V c main_v19 (ix2 k q)
  refine congrArg (V c main_v19) (funext fun a => Fin.ext ?_)
  match a with
  | ⟨0, _⟩ => show win0_5.index t (0 : Fin 2) * 90 + 1 * k.val = k.val; omega
  | ⟨1, _⟩ => show win0_5.index t (1 : Fin 2) * 90 + 1 * q.val = q.val; omega

/-- WHAT POINT `t` WRITES BACK is its row block of the layer of the arrays the region was entered on. -/
theorem flushed_eq (c : Dev nD) (t : Fin cfg0.N) :
    (dat0 V c).flushed 6 t = ((cfg0.win 6).blk t).view.read (Elt Ideal)
      (Sage.sageLayer 50000 (V c main_arg0) (V c main_v17) (V c main_v7) (V c main_v18) (V c main_v20) (V c main_v19)) := by
  show (cfg0.win 6).cut (grid0.coords t) ((dat0 V c).after 6 t) = _
  rw [after0_6]
  unfold out0_6
  rw [View.canon_unit_zero offsets_zero]
  simp only [View.ld_unit_zero (S := S2000x90) offsets_zero, View.ld_unit_zero (S := S2000x1) offsets_zero,
    View.ld_unit_zero (S := S90x90) offsets_zero, View.ld_unit_zero (S := S1x90) offsets_zero]
  rw [Cert.KernelIdeal.Blocks.layerBlock0]
  obtain ⟨-, -, -, -, -, -, -, -, -, -, -, -, e12, e13⟩ := index_facts t
  funext y
  obtain ⟨p, q, rfl⟩ : ∃ (p : Fin 2000) (q : Fin 90), y = ix2 p q := ⟨y 0, y 1, eq_ix2 y⟩
  have hp : p.val < 2000 := p.isLt
  have hemb : ((cfg0.win 6).blk t).view.emb (ix2 p q)
      = ix2 (⟨win0_6.index t (0 : Fin 2) * 2000 + p.val, by omega⟩ : Fin 50000) q := by
    funext a; apply Fin.ext
    match a with
    | ⟨0, _⟩ => show win0_6.index t (0 : Fin 2) * 2000 + 1 * p.val = win0_6.index t (0 : Fin 2) * 2000 + p.val; omega
    | ⟨1, _⟩ => show win0_6.index t (1 : Fin 2) * 90 + 1 * q.val = q.val; omega
  show Sage.sageLayer 2000 (iblk0 V c 0 t) (iblk0 V c 1 t) (iblk0 V c 2 t) (iblk0 V c 3 t) (iblk0 V c 4 t) (iblk0 V c 5 t) (ix2 p q)
    = Sage.sageLayer 50000 (V c main_arg0) (V c main_v17) (V c main_v7) (V c main_v18) (V c main_v20) (V c main_v19)
        (((cfg0.win 6).blk t).view.emb (ix2 p q))
  rw [hemb]
  exact Sage.sageLayer_rows 2000 50000 (iblk0 V c 0 t) (iblk0 V c 1 t) (iblk0 V c 2 t) (iblk0 V c 3 t) (iblk0 V c 4 t) (iblk0 V c 5 t)
    (V c main_arg0) (V c main_v17) (V c main_v7) (V c main_v18) (V c main_v20) (V c main_v19) p ⟨win0_6.index t (0 : Fin 2) * 2000 + p.val, by omega⟩ q
    (fun k => read_x V c t p k _ rfl) (fun k => read_s V c t p k _ rfl) (read_cnt V c t p _ rfl)
    (fun k => read_wl V c t k q) (read_b V c t q) (fun k => read_wr V c t k q)

/-- An index of the result array is in point `t`'s block iff each coordinate is in the block's range on its axis. -/
theorem mem_block (t : Fin cfg0.N) (i : S50000x90.Idx) :
    i ∈ ((cfg0.win 6).blk t).view.set ↔ ∀ a : Fin 2, win0_6.index t a * S2000x90.size a ≤ (i a).val ∧ (i a).val < win0_6.index t a * S2000x90.size a + S2000x90.size a := by
  show i ∈ ((View.whole main_v21).slice (win0_6.rect t)).set ↔ _
  rw [View.set_slice_whole, Rect.mem_set_unit]
  exact Iff.rfl

/-- Every entry of the result array is in the block of the point whose row block holds its row. -/
theorem covered (i : S50000x90.Idx) : ∃ t : Fin cfg0.N, (cfg0.win 6).flush t = true ∧ i ∈ ((cfg0.win 6).blk t).view.set := by
  have hi0 : (i 0).val < 50000 := (i 0).isLt
  have hi1 : (i 1).val < 90 := (i 1).isLt
  obtain ⟨t, ht⟩ := index_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 90 ≤ (i 1).val ∧ (i 1).val < win0_6.index t (1 : Fin 2) * 90 + 90; omega

/-- THE RESULT ARRAY after the region: the layer of the arrays the region was entered on. -/
theorem result (c : Dev nD) :
    (dat0 V c).arrAt 6 cfg0.N
      = Sage.sageLayer 50000 (V c main_arg0) (V c main_v17) (V c main_v7) (V c main_v18) (V c main_v20) (V c main_v19) :=
  (dat0 V c).arrAt_eq_of_cover 6 _ (fun t _ => flushed_eq V c t) covered

end Cert.KernelIdeal.Layer0

end
-- ==== Proof.RDot.lean ====
/-
  A matrix product of the reference read at one entry.

  The reference multiplies the whole 50000 by 90 node array by a 90 by 90 weight matrix. Over the extended
  reals that product, at node `r` and output feature `c`, is the plain sum over the 90 input features `k` of
  `a[r,k] · w[k,c]`.
-/
import proofs.«430828_j23476291240659_1_alg».proof.Proof.Gen.ReferenceIdeal
import Idealize.ShloMosaic.PureOps.Ideal.Laws
import Idealize.ShloMosaic.Lib.ValueIdx

set_option maxRecDepth 16384

noncomputable section

namespace Cert.ReferenceIdeal.Rows

open Cert.ReferenceIdeal Cert.ReferenceIdeal.Gen Idealize.ShloMosaic Idealize.ShloMosaic.ValueIdx
open scoped BigOperators

/-- The left operand's row is the result's row. -/
theorem lhs_row (i : S50000x90.Idx) (q : dot_S50000x90_S90x90_S50000x90_1_0_0_1_n_n.contr.Idx) :
    (dot_S50000x90_S90x90_S50000x90_1_0_0_1_n_n.lhsIdx i q 0).val = (i 0).val := by
  unfold DotDims.lhsIdx
  rw [dif_neg (show ¬(0 : Fin S50000x90.rank) ∈ dot_S50000x90_S90x90_S50000x90_1_0_0_1_n_n.lhsBatch by decide), dif_pos (show (0 : Fin S50000x90.rank) ∈ dot_S50000x90_S90x90_S50000x90_1_0_0_1_n_n.lhsNonContracting by decide)]
  rfl
/-- The left operand's column is the contracted feature. -/
theorem lhs_col (i : S50000x90.Idx) (q : dot_S50000x90_S90x90_S50000x90_1_0_0_1_n_n.contr.Idx) :
    (dot_S50000x90_S90x90_S50000x90_1_0_0_1_n_n.lhsIdx i q 1).val = (q ⟨0, by decide⟩).val :=
  dot_S50000x90_S90x90_S50000x90_1_0_0_1_n_n.lhsIdx_val_of_single rfl i q
/-- The right operand's row is the contracted feature. -/
theorem rhs_row (i : S50000x90.Idx) (q : dot_S50000x90_S90x90_S50000x90_1_0_0_1_n_n.contr.Idx) :
    (dot_S50000x90_S90x90_S50000x90_1_0_0_1_n_n.rhsIdx i q 0).val = (q ⟨0, by decide⟩).val :=
  dot_S50000x90_S90x90_S50000x90_1_0_0_1_n_n.rhsIdx_val_of_single rfl i q
/-- The right operand's column is the result's column. -/
theorem rhs_col (i : S50000x90.Idx) (q : dot_S50000x90_S90x90_S50000x90_1_0_0_1_n_n.contr.Idx) :
    (dot_S50000x90_S90x90_S50000x90_1_0_0_1_n_n.rhsIdx i q 1).val = (i 1).val := by
  unfold DotDims.rhsIdx
  rw [dif_neg (show ¬(1 : Fin S90x90.rank) ∈ dot_S50000x90_S90x90_S50000x90_1_0_0_1_n_n.rhsBatch by decide), dif_pos (show (1 : Fin S90x90.rank) ∈ dot_S50000x90_S90x90_S50000x90_1_0_0_1_n_n.rhsNonContracting by decide)]
  rfl

/-- The whole-array product, at node `r` and output feature `c`, is `∑ₖ a[r,k] · w[k,c]`. -/
theorem product_apply {φ₁ φ₂ : FTy} (a : FVec Ideal S50000x90 φ₁) (w : FVec Ideal S90x90 φ₂) (r : Fin 50000) (c : Fin 90) :
    Host.dotGeneral dot_S50000x90_S90x90_S50000x90_1_0_0_1_n_n none a w (ix2 r c)
      = ∑ k : Fin 90, a (ix2 r k) * w (ix2 k c) := by
  simp only [Host.dotGeneral]
  rw [Ideal.dotGeneral_apply, ← Equiv.sum_comp (contrEquiv1 dot_S50000x90_S90x90_S50000x90_1_0_0_1_n_n 90 rfl rfl).symm]
  refine Finset.sum_congr rfl fun k _ => ?_
  have hk := contrEquiv1_symm_val dot_S50000x90_S90x90_S50000x90_1_0_0_1_n_n 90 rfl rfl k
  have el : dot_S50000x90_S90x90_S50000x90_1_0_0_1_n_n.lhsIdx (ix2 r c) ((contrEquiv1 dot_S50000x90_S90x90_S50000x90_1_0_0_1_n_n 90 rfl rfl).symm k) = ix2 r k := funext fun ax => Fin.ext (by
    match ax with
    | ⟨0, _⟩ => exact lhs_row _ _
    | ⟨1, _⟩ => exact (lhs_col _ _).trans hk)
  have er : dot_S50000x90_S90x90_S50000x90_1_0_0_1_n_n.rhsIdx (ix2 r c) ((contrEquiv1 dot_S50000x90_S90x90_S50000x90_1_0_0_1_n_n 90 rfl rfl).symm k) = ix2 k c := funext fun ax => Fin.ext (by
    match ax with
    | ⟨0, _⟩ => exact (rhs_row _ _).trans hk
    | ⟨1, _⟩ => exact rhs_col _ _)
  rw [el, er]

end Cert.ReferenceIdeal.Rows

end
-- ==== Proof.RefLayer.lean ====
/-
  One layer of the reference is the layer of the specification.

  The reference computes a layer on whole arrays: the neighbour sum divided by the in-degree clamped at one and
  broadcast along the features; that quotient times the first weight matrix; plus the bias row broadcast down the
  nodes; plus the nodes' own features times the second weight matrix; and the maximum with zero. Read at node `r`
  and output feature `c`, each of these is what the specification writes: the two products are plain sums over
  the 90 input features, the broadcast column is the in-degree of row `r`, the broadcast row is the bias at `c`.
-/
import proofs.«430828_j23476291240659_1_alg».proof.Proof.RDot
import proofs.«430828_j23476291240659_1_alg».proof.Proof.Spec
import proofs.«430828_j23476291240659_1_alg».proof.Proof.LibBroadcast

set_option maxRecDepth 16384

noncomputable section

namespace Cert.ReferenceIdeal.Rows

open Cert.ReferenceIdeal Cert.ReferenceIdeal.Gen Idealize.ShloMosaic Idealize.ShloMosaic.ValueIdx
open scoped BigOperators

/-- The reference's layer, as it spells it, on arbitrary operand arrays. -/
def layerOps (x s : FVec Ideal S50000x90 .f32) (cnt : FVec Ideal S50000x1 .f32) (wl : FVec Ideal S90x90 .f32)
    (b : FVec Ideal S1x90 .f32) (wr : FVec Ideal S90x90 .f32) : FVec Ideal S50000x90 .f32 :=
  maximumf (addf (addf (Host.dotGeneral dot_S50000x90_S90x90_S50000x90_1_0_0_1_n_n none
      (Host.divf s (broadcastInDim S50000x90 ![0, 1] bcast_S50000x1_S50000x90_0_1
        (maximumf cnt (broadcastInDim S50000x1 ![] bcast_S_S50000x1 (constant S_ .f32 0x3F800000#32))))) wl)
      (broadcastInDim S50000x90 ![0, 1] bcast_S1x90_S50000x90_0_1 b))
      (Host.dotGeneral dot_S50000x90_S90x90_S50000x90_1_0_0_1_n_n none x wr))
    (broadcastInDim S50000x90 ![] bcast_S_S50000x90 (constant S_ .f32 0x00000000#32))

/-- The clamped in-degree broadcast along the features, then the quotient, at node `r` and feature `k`. -/
theorem mean_apply (s : FVec Ideal S50000x90 .f32) (cnt : FVec Ideal S50000x1 .f32) (r : Fin 50000) (k : Fin 90) :
    Host.divf s (broadcastInDim S50000x90 ![0, 1] bcast_S50000x1_S50000x90_0_1
        (maximumf cnt (broadcastInDim S50000x1 ![] bcast_S_S50000x1 (constant S_ .f32 0x3F800000#32)))) (ix2 r k)
      = Sage.meanAt s cnt r k := by
  show Ideal.div (s (ix2 r k)) (broadcastInDim S50000x90 ![0, 1] bcast_S50000x1_S50000x90_0_1
        (maximumf cnt (broadcastInDim S50000x1 ![] bcast_S_S50000x1 (constant S_ .f32 0x3F800000#32))) (ix2 r k)) = _
  rw [Cert.LibBroadcast.broadcastInDim_a1_ab_apply]
  rfl

/-- The reference's layer is the specification's. -/
theorem layerOps_eq (x s : FVec Ideal S50000x90 .f32) (cnt : FVec Ideal S50000x1 .f32) (wl : FVec Ideal S90x90 .f32)
    (b : FVec Ideal S1x90 .f32) (wr : FVec Ideal S90x90 .f32) :
    layerOps x s cnt wl b wr = Sage.sageLayer 50000 x s cnt wl b wr := by
  funext j
  obtain ⟨r, c, rfl⟩ : ∃ (r : Fin 50000) (c : Fin 90), j = ix2 r c := ⟨j 0, j 1, eq_ix2 j⟩
  rw [Sage.sageLayer_ix2]
  unfold layerOps
  simp only [maximumf_apply, addf_apply]
  rw [product_apply, product_apply, Cert.LibBroadcast.broadcastInDim_1b_ab_apply]
  simp only [mean_apply s cnt r]
  rfl

end Cert.ReferenceIdeal.Rows

end
-- ==== Proof.RefHead.lean ====
/-
  The pooled read-out as the reference spells it, on arbitrary operands.

  The graph sums are divided by the graph sizes clamped at one (broadcast along the features); a dense map to 32
  features, its bias row broadcast down the graphs, and a maximum with zero follow; then a dense map to one
  feature and its bias.
-/
import proofs.«430828_j23476291240659_1_alg».proof.Proof.Gen.ReferenceIdeal
import Idealize.ShloMosaic.PureOps.Ideal

noncomputable section

namespace Cert.ReferenceIdeal.Rows

open Cert.ReferenceIdeal Cert.ReferenceIdeal.Gen Idealize.ShloMosaic

/-- The read-out on graph sums `gs`, graph sizes `gc`, the two weight matrices laid out as [input, output] and the
    two bias rows. -/
def headOps (gs : FVec Ideal S500x90 .f32) (gc : FVec Ideal S500x1 .f32) (w1 : FVec Ideal S90x32 .f32) (b1 : FVec Ideal S1x32 .f32)
    (w2 : FVec Ideal S32x1 .f32) (b2 : FVec Ideal S1x1 .f32) : FVec Ideal S500x1 .f32 :=
  addf (Host.dotGeneral dot_S500x32_S32x1_S500x1_1_0_0_1_n_n none
      (maximumf (addf (Host.dotGeneral dot_S500x90_S90x32_S500x32_1_0_0_1_n_n none
          (Host.divf gs (broadcastInDim S500x90 ![0, 1] bcast_S500x1_S500x90_0_1
            (maximumf gc (broadcastInDim S500x1 ![] bcast_S_S500x1 (constant S_ .f32 0x3F800000#32))))) w1)
          (broadcastInDim S500x32 ![0, 1] bcast_S1x32_S500x32_0_1 b1))
        (broadcastInDim S500x32 ![] bcast_S_S500x32 (constant S_ .f32 0x00000000#32))) w2)
    (broadcastInDim S500x1 ![0, 1] bcast_S1x1_S500x1_0_1 b2)

end Cert.ReferenceIdeal.Rows

end
-- ==== Proof.RefNet.lean ====
/-
  The reference as one function of its sixteen arguments.

  The edge list gives each edge a source and a target node. The in-degree of a node is the number of edges that
  target it; the neighbour sum of a node is the sum of the feature rows of the sources of those edges (a negative
  source index wraps round by the number of nodes, as array indexing does). One layer (Spec.lean) maps the node
  features to new node features from these two; the reference applies three layers, sums the rows of each graph
  (the node-to-graph assignment is the third argument), divides by the graph's node count clamped at one, and ends
  with two dense maps with a maximum-with-zero between them. Every operation that moves data by index
  (the gather, the three kinds of accumulating scatter) is carried here as the function the reference prints, unopened:
  the kernel's program applies the very same operations to the same operands.
-/
import proofs.«430828_j23476291240659_1_alg».proof.Proof.Gen.ReferenceIdeal.Run
import proofs.«430828_j23476291240659_1_alg».proof.Proof.RefLayer
import proofs.«430828_j23476291240659_1_alg».proof.Proof.RefHead

set_option maxRecDepth 16384

noncomputable section

namespace Cert.ReferenceIdeal.Net

open Cert.ReferenceIdeal Cert.ReferenceIdeal.Gen Cert.ReferenceIdeal.Rows Idealize.ShloMosaic Idealize.ShloMosaic.TcCoe Idealize.SL.Sem

/-- The source node of every edge: row 0 of the edge list. -/
def srcOf (ei : IVec S2x800000 32) : IVec S800000 32 :=
  shapeCast S800000 (extractStridedSlice S1x800000 ![0, 0] ei slices_S2x800000_S1x800000_0_0) shapeCasts_S1x800000_S800000
/-- The target node of every edge: row 1 of the edge list. -/
def dstOf (ei : IVec S2x800000 32) : IVec S800000 32 :=
  shapeCast S800000 (extractStridedSlice S1x800000 ![1, 0] ei slices_S2x800000_S1x800000_1_0) shapeCasts_S1x800000_S800000
/-- The row each edge reads: its source, a negative one wrapped round by the node count. -/
def gatherIdx (ei : IVec S2x800000 32) : IVec S800000x1 32 :=
  broadcastInDim S800000x1 ![0] bcast_S800000_S800000x1_0
    (select (cmpi .slt (srcOf ei) (broadcastInDim S800000 ![] bcast_S_S800000 (constantI S_ 32 0#32)))
      (addi (srcOf ei) (broadcastInDim S800000 ![] bcast_S_S800000 (constantI S_ 32 50000#32))) (srcOf ei))
/-- The row each edge adds into: its target. -/
def scatterIdx (ei : IVec S2x800000 32) : IVec S800000x1 32 :=
  broadcastInDim S800000x1 ![0] bcast_S800000_S800000x1_0 (dstOf ei)
/-- The in-degree of every node, as one column: a one added per edge at its target. -/
def degree (ei : IVec S2x800000 32) : FVec Ideal S50000x1 .f32 :=
  Host.scatterAdd scatter_S50000x1_S800000x1_S800000x1_1_0_0_1 (broadcastInDim S50000x1 ![] bcast_S_S50000x1 (constant S_ .f32 0x00000000#32))
    (scatterIdx ei) (broadcastInDim S800000x1 ![] bcast_S_S800000x1 (constant S_ .f32 0x3F800000#32))
/-- The neighbour sum of every node: each edge's source row added at its target. -/
def neighbourSum (h : FVec Ideal S50000x90 .f32) (ei : IVec S2x800000 32) : FVec Ideal S50000x90 .f32 :=
  Host.scatterAdd scatter_S50000x90_S800000x1_S800000x90_1_0_0_1 (broadcastInDim S50000x90 ![] bcast_S_S50000x90 (constant S_ .f32 0x00000000#32))
    (scatterIdx ei) (Host.gather gather_S50000x90_S800000x1_S800000x90_1_0_n_n_0_1_190 h (gatherIdx ei))
/-- The sum of the node rows of every graph. -/
def poolSum (h : FVec Ideal S50000x90 .f32) (bt : IVec S50000 32) : FVec Ideal S500x90 .f32 :=
  Host.scatterAdd scatter_S500x90_S50000x1_S50000x90_1_0_0_1 (broadcastInDim S500x90 ![] bcast_S_S500x90 (constant S_ .f32 0x00000000#32))
    (broadcastInDim S50000x1 ![0] bcast_S50000_S50000x1_0 bt) h
/-- The node count of every graph, as one column. -/
def poolCount (bt : IVec S50000 32) : FVec Ideal S500x1 .f32 :=
  Host.scatterAdd scatter_S500x1_S50000x1_S50000x1_1_0_0_1 (broadcastInDim S500x1 ![] bcast_S_S500x1 (constant S_ .f32 0x00000000#32))
    (broadcastInDim S50000x1 ![0] bcast_S50000_S50000x1_0 bt) (broadcastInDim S50000x1 ![] bcast_S_S50000x1 (constant S_ .f32 0x3F800000#32))
/-- A 90 by 90 weight matrix laid out as [input feature, output feature]. -/
def tr90 (w : FVec Ideal S90x90 .f32) : FVec Ideal S90x90 .f32 := transpose S90x90 [1, 0] w transposes_S90x90_S90x90_1_0
/-- A bias vector as one row. -/
def row90 (b : FVec Ideal S90 .f32) : FVec Ideal S1x90 .f32 := broadcastInDim S1x90 ![1] bcast_S90_S1x90_1 b

/-- One layer applied to node features `h` over the graph `ei`, with its two weight matrices and bias as given. -/
def layer (h : FVec Ideal S50000x90 .f32) (ei : IVec S2x800000 32) (wl : FVec Ideal S90x90 .f32) (b : FVec Ideal S90 .f32)
    (wr : FVec Ideal S90x90 .f32) : FVec Ideal S50000x90 .f32 :=
  Sage.sageLayer 50000 h (neighbourSum h ei) (degree ei) (tr90 wl) (row90 b) (tr90 wr)

/-- The whole network: three layers, the per-graph mean, the read-out. -/
def net (x : FVec Ideal S50000x90 .f32) (ei : IVec S2x800000 32) (bt : IVec S50000 32)
    (w1l : FVec Ideal S90x90 .f32) (b1l : FVec Ideal S90 .f32) (w1r : FVec Ideal S90x90 .f32)
    (w2l : FVec Ideal S90x90 .f32) (b2l : FVec Ideal S90 .f32) (w2r : FVec Ideal S90x90 .f32)
    (w3l : FVec Ideal S90x90 .f32) (b3l : FVec Ideal S90 .f32) (w3r : FVec Ideal S90x90 .f32)
    (f1w : FVec Ideal S32x90 .f32) (f1b : FVec Ideal S32 .f32) (f2w : FVec Ideal S1x32 .f32) (f2b : FVec Ideal S1 .f32) :
    FVec Ideal S500x1 .f32 :=
  headOps (poolSum (layer (layer (layer x ei w1l b1l w1r) ei w2l b2l w2r) ei w3l b3l w3r) bt) (poolCount bt)
    (transpose S90x32 [1, 0] f1w transposes_S32x90_S90x32_1_0) (broadcastInDim S1x32 ![1] bcast_S32_S1x32_1 f1b)
    (transpose S32x1 [1, 0] f2w transposes_S1x32_S32x1_1_0) (broadcastInDim S1x1 ![1] bcast_S1_S1x1_1 f2b)

/-- The layer in the reference's own operations. -/
theorem layer_eq_ops (h : FVec Ideal S50000x90 .f32) (ei : IVec S2x800000 32) (wl : FVec Ideal S90x90 .f32) (b : FVec Ideal S90 .f32)
    (wr : FVec Ideal S90x90 .f32) :
    layer h ei wl b wr = layerOps h (neighbourSum h ei) (degree ei) (tr90 wl) (row90 b) (tr90 wr) :=
  (layerOps_eq _ _ _ _ _ _).symm

/-- What the reference's run leaves in its result is the network of its arguments. -/
theorem result_eq (m : (ℓ : Loc nD τ sig) → Buf (Elt Ideal) ℓ) (c : Dev nD) :
    Cert.ReferenceIdeal.Value.res_main_v106 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) := by
  unfold net
  rw [layer_eq_ops, layer_eq_ops, layer_eq_ops]
  unfold Cert.ReferenceIdeal.Value.res_main_v106 headOps poolSum poolCount layerOps neighbourSum degree gatherIdx scatterIdx srcOf dstOf tr90 row90
  rfl

end Cert.ReferenceIdeal.Net

end
-- ==== Proof.KFold1.lean ====
/-
  The kernel's program up to the end of its first layer region, buffer by buffer.

  @main is four layer-or-read-out regions among four stretches of host operations; the buffer contents at each of
  the eight segment boundaries are a fold from the launch memory. Here the first two boundaries are read back.
  After the first stretch: the edge sources and targets, the in-degree column, the neighbour sums of the input
  features, the first layer's weight matrices laid out as [input, output] and its bias as one row, each as the
  network's own function (RefNet.lean) of the launch arrays, since the stretch applies the reference's operations
  to the same operands; and the argument arrays, which no operation of the stretch writes. After the first region:
  its result array holds the first layer of the input features (KLayer0.lean at these entry contents); the edge
  arrays and the arguments are untouched, the in-degree column is an input window of the region and ends as
  it was entered.
-/
import proofs.«430828_j23476291240659_1_alg».proof.Proof.Gen.KernelIdeal.Frame
import proofs.«430828_j23476291240659_1_alg».proof.Proof.KLayer0
import proofs.«430828_j23476291240659_1_alg».proof.Proof.RefNet
import proofs.«430828_j23476291240659_1_alg».proof.Proof.LibBroadcast

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Cert.ReferenceIdeal.Net

/-- A buffer that no operation of a host stretch writes holds after the stretch what it held before: each
    operation's written buffer is another reference. -/
macro "host_keeps " b:term : tactic =>
  `(tactic| exact StableHlo.after_of_forall_not_mem (b := Proc.devRef .tc $b) _ _ (List.forall_iff_forall_mem.mp (by
      simp only [hostOps0, hostOps1, hostOps2, hostOps3, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- The node features after one, two and three layers, as functions of the launch arrays. -/
def h1 : FVec Ideal Cert.ReferenceIdeal.S50000x90 .f32 := layer (m ((c : Thread nD τ).loc main_arg0)) (m ((c : Thread nD τ).loc main_arg1)) (m ((c : Thread nD τ).loc main_arg3)) (m ((c : Thread nD τ).loc main_arg4)) (m ((c : Thread nD τ).loc main_arg5))
def h2 : FVec Ideal Cert.ReferenceIdeal.S50000x90 .f32 := layer (h1 m c) (m ((c : Thread nD τ).loc main_arg1)) (m ((c : Thread nD τ).loc main_arg6)) (m ((c : Thread nD τ).loc main_arg7)) (m ((c : Thread nD τ).loc main_arg8))
def h3 : FVec Ideal Cert.ReferenceIdeal.S50000x90 .f32 := layer (h2 m c) (m ((c : Thread nD τ).loc main_arg1)) (m ((c : Thread nD τ).loc main_arg9)) (m ((c : Thread nD τ).loc main_arg10)) (m ((c : Thread nD τ).loc main_arg11))

/-! ## After the first host stretch -/

theorem W1_src : W1 m ρ c (Proc.devRef .tc main_v1) = srcOf (m ((c : Thread nD τ).loc main_arg1)) := by
  show StableHlo.after hostOps0 (W0 m ρ c) (Proc.devRef .tc main_v1) = _
  dsimp only [hostOps0]
  after_results_simp
  rfl

theorem W1_dst : W1 m ρ c (Proc.devRef .tc main_v3) = dstOf (m ((c : Thread nD τ).loc main_arg1)) := by
  show StableHlo.after hostOps0 (W0 m ρ c) (Proc.devRef .tc main_v3) = _
  dsimp only [hostOps0]
  after_results_simp
  rfl

theorem W1_degree : W1 m ρ c (Proc.devRef .tc main_v7) = degree (m ((c : Thread nD τ).loc main_arg1)) := by
  show StableHlo.after hostOps0 (W0 m ρ c) (Proc.devRef .tc main_v7) = _
  dsimp only [hostOps0]
  after_results_simp
  rfl

theorem W1_sum : W1 m ρ c (Proc.devRef .tc main_v17) = neighbourSum (m ((c : Thread nD τ).loc main_arg0)) (m ((c : Thread nD τ).loc main_arg1)) := by
  show StableHlo.after hostOps0 (W0 m ρ c) (Proc.devRef .tc main_v17) = _
  dsimp only [hostOps0]
  after_results_simp
  rfl

theorem W1_wl : W1 m ρ c (Proc.devRef .tc main_v18) = tr90 (m ((c : Thread nD τ).loc main_arg3)) := by
  show StableHlo.after hostOps0 (W0 m ρ c) (Proc.devRef .tc main_v18) = _
  dsimp only [hostOps0]
  after_results_simp
  rfl

theorem W1_wr : W1 m ρ c (Proc.devRef .tc main_v19) = tr90 (m ((c : Thread nD τ).loc main_arg5)) := by
  show StableHlo.after hostOps0 (W0 m ρ c) (Proc.devRef .tc main_v19) = _
  dsimp only [hostOps0]
  after_results_simp
  rfl

/-- The bias reshaped to one row is the bias placed as the one row. -/
theorem W1_b : W1 m ρ c (Proc.devRef .tc main_v20) = row90 (m ((c : Thread nD τ).loc main_arg4)) := by
  show StableHlo.after hostOps0 (W0 m ρ c) (Proc.devRef .tc main_v20) = _
  dsimp only [hostOps0]
  after_results_simp
  exact Cert.LibBroadcast.shapeCast_row_eq_inDim _ _ _

theorem W1_arg0 : W1 m ρ c (Proc.devRef .tc main_arg0) = m ((c : Thread nD τ).loc main_arg0) := by
  refine Eq.trans ?_ (rfl : W0 m ρ c (Proc.devRef .tc main_arg0) = _)
  host_keeps main_arg0
theorem W1_arg2 : W1 m ρ c (Proc.devRef .tc main_arg2) = m ((c : Thread nD τ).loc main_arg2) := by
  refine Eq.trans ?_ (rfl : W0 m ρ c (Proc.devRef .tc main_arg2) = _)
  host_keeps main_arg2
theorem W1_arg6 : W1 m ρ c (Proc.devRef .tc main_arg6) = m ((c : Thread nD τ).loc main_arg6) := by
  refine Eq.trans ?_ (rfl : W0 m ρ c (Proc.devRef .tc main_arg6) = _)
  host_keeps main_arg6
theorem W1_arg7 : W1 m ρ c (Proc.devRef .tc main_arg7) = m ((c : Thread nD τ).loc main_arg7) := by
  refine Eq.trans ?_ (rfl : W0 m ρ c (Proc.devRef .tc main_arg7) = _)
  host_keeps main_arg7
theorem W1_arg8 : W1 m ρ c (Proc.devRef .tc main_arg8) = m ((c : Thread nD τ).loc main_arg8) := by
  refine Eq.trans ?_ (rfl : W0 m ρ c (Proc.devRef .tc main_arg8) = _)
  host_keeps main_arg8
theorem W1_arg9 : W1 m ρ c (Proc.devRef .tc main_arg9) = m ((c : Thread nD τ).loc main_arg9) := by
  refine Eq.trans ?_ (rfl : W0 m ρ c (Proc.devRef .tc main_arg9) = _)
  host_keeps main_arg9
theorem W1_arg10 : W1 m ρ c (Proc.devRef .tc main_arg10) = m ((c : Thread nD τ).loc main_arg10) := by
  refine Eq.trans ?_ (rfl : W0 m ρ c (Proc.devRef .tc main_arg10) = _)
  host_keeps main_arg10
theorem W1_arg11 : W1 m ρ c (Proc.devRef .tc main_arg11) = m ((c : Thread nD τ).loc main_arg11) := by
  refine Eq.trans ?_ (rfl : W0 m ρ c (Proc.devRef .tc main_arg11) = _)
  host_keeps main_arg11
theorem W1_arg12 : W1 m ρ c (Proc.devRef .tc main_arg12) = m ((c : Thread nD τ).loc main_arg12) := by
  refine Eq.trans ?_ (rfl : W0 m ρ c (Proc.devRef .tc main_arg12) = _)
  host_keeps main_arg12
theorem W1_arg13 : W1 m ρ c (Proc.devRef .tc main_arg13) = m ((c : Thread nD τ).loc main_arg13) := by
  refine Eq.trans ?_ (rfl : W0 m ρ c (Proc.devRef .tc main_arg13) = _)
  host_keeps main_arg13
theorem W1_arg14 : W1 m ρ c (Proc.devRef .tc main_arg14) = m ((c : Thread nD τ).loc main_arg14) := by
  refine Eq.trans ?_ (rfl : W0 m ρ c (Proc.devRef .tc main_arg14) = _)
  host_keeps main_arg14
theorem W1_arg15 : W1 m ρ c (Proc.devRef .tc main_arg15) = m ((c : Thread nD τ).loc main_arg15) := by
  refine Eq.trans ?_ (rfl : W0 m ρ c (Proc.devRef .tc main_arg15) = _)
  host_keeps main_arg15

/-! ## After the first layer region -/

/-- The region's result array holds the first layer of the input features. -/
theorem W2_h1 : W2 m ρ c (Proc.devRef .tc main_v21) = h1 m c := by
  refine (W2_arr m ρ c 6).trans ((Cert.KernelIdeal.Layer0.result (V1 m ρ) c).trans ?_)
  show Sage.sageLayer 50000 (W1 m ρ c (Proc.devRef .tc main_arg0)) (W1 m ρ c (Proc.devRef .tc main_v17)) (W1 m ρ c (Proc.devRef .tc main_v7))
    (W1 m ρ c (Proc.devRef .tc main_v18)) (W1 m ρ c (Proc.devRef .tc main_v20)) (W1 m ρ c (Proc.devRef .tc main_v19)) = _
  rw [W1_arg0 m ρ c, W1_sum m ρ c, W1_degree m ρ c, W1_wl m ρ c, W1_b m ρ c, W1_wr m ρ c]
  rfl

theorem W2_src : W2 m ρ c (Proc.devRef .tc main_v1) = srcOf (m ((c : Thread nD τ).loc main_arg1)) :=
  (W2_of_ne m ρ c main_v1 (by decide)).trans (W1_src m ρ c)
theorem W2_dst : W2 m ρ c (Proc.devRef .tc main_v3) = dstOf (m ((c : Thread nD τ).loc main_arg1)) :=
  (W2_of_ne m ρ c main_v3 (by decide)).trans (W1_dst m ρ c)
/-- The in-degree column is an input window of the region: it ends as it was entered. -/
theorem W2_degree : W2 m ρ c (Proc.devRef .tc main_v7) = degree (m ((c : Thread nD τ).loc main_arg1)) :=
  (W2_arr m ρ c 2).trans (((dat0 (V1 m ρ) c).arrAt_in 2 rfl _).trans ((A_eq0 (V1 m ρ) c 2).trans (W1_degree m ρ c)))
theorem W2_arg2 : W2 m ρ c (Proc.devRef .tc main_arg2) = m ((c : Thread nD τ).loc main_arg2) :=
  (W2_of_ne m ρ c main_arg2 (by decide)).trans (W1_arg2 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)

end Cert.KernelIdeal.Fold

end
-- ==== Proof.KLayer1.lean ====
/-
  The second layer kernel leaves its result array at the specification's layer of the arrays it was launched on.

  The kernel runs on a grid of 25 points; at point `t` it reads rows `2000·t … 2000·t + 1999` of the node
  features, of the neighbour sums and of the in-degree column, the two whole weight matrices and the whole bias row,
  and writes back rows `2000·t … 2000·t + 1999` of the result. What it writes back is the layer on those rows
  (KPayload.lean), and a row of the layer depends only on the same row of the three node arrays, so it is the same
  rows of the layer on all 50000 nodes. The 25 row blocks cover every row, hence the array ends holding the layer of
  the whole arrays. The contents `V` the region is entered from stay a parameter.
-/
import proofs.«430828_j23476291240659_1_alg».proof.Proof.Gen.KernelIdeal.Frame
import proofs.«430828_j23476291240659_1_alg».proof.Proof.KPayload

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the 25 points: the three node windows sit on the result's row block, the
    weights and the bias on their one block, and the result's row block number is at most 24. -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 24 ∧ win1_6.index t (1 : Fin 2) = 0 :=
  (by decide +kernel : ∀ t : Fin grid1.N, _)

/-- Every row block is some point's. -/
theorem index_onto : ∀ q : Fin 25, ∃ t : Fin cfg1.N, win1_6.index t = ![q.val, 0] :=
  (by decide +kernel : ∀ q : Fin 25, ∃ t : Fin grid1.N, win1_6.index t = ![q.val, 0])

/-- A node window's block at point `t`, read at row `p` of the block, is the array at row `2000·(block number) + p`. -/
theorem read_x (c : Dev nD) (t : Fin cfg1.N) (p : Fin 2000) (k : Fin 90) (P : Fin 50000)
    (hP : P.val = win1_6.index t (0 : Fin 2) * 2000 + p.val) :
    iblk1 V c 0 t (ix2 p k) = V c main_v21 (ix2 P k) := by
  obtain ⟨e0, e1, -⟩ := index_facts t
  show V c main_v21 (((cfg1.win 0).blk t).view.emb (ix2 p k)) = V c main_v21 (ix2 P k)
  refine congrArg (V c main_v21) (funext fun a => Fin.ext ?_)
  match a with
  | ⟨0, _⟩ => show win1_0.index t (0 : Fin 2) * 2000 + 1 * p.val = P.val; omega
  | ⟨1, _⟩ => show win1_0.index t (1 : Fin 2) * 90 + 1 * k.val = k.val; omega

theorem read_s (c : Dev nD) (t : Fin cfg1.N) (p : Fin 2000) (k : Fin 90) (P : Fin 50000)
    (hP : P.val = win1_6.index t (0 : Fin 2) * 2000 + p.val) :
    iblk1 V c 1 t (ix2 p k) = V c main_v31 (ix2 P k) := by
  obtain ⟨-, -, e0, e1, -⟩ := index_facts t
  show V c main_v31 (((cfg1.win 1).blk t).view.emb (ix2 p k)) = V c main_v31 (ix2 P k)
  refine congrArg (V c main_v31) (funext fun a => Fin.ext ?_)
  match a with
  | ⟨0, _⟩ => show win1_1.index t (0 : Fin 2) * 2000 + 1 * p.val = P.val; omega
  | ⟨1, _⟩ => show win1_1.index t (1 : Fin 2) * 90 + 1 * k.val = k.val; omega

theorem read_cnt (c : Dev nD) (t : Fin cfg1.N) (p : Fin 2000) (P : Fin 50000)
    (hP : P.val = win1_6.index t (0 : Fin 2) * 2000 + p.val) :
    iblk1 V c 2 t (ix2 p (0 : Fin 1)) = V c main_v7 (ix2 P (0 : Fin 1)) := by
  obtain ⟨-, -, -, -, e0, e1, -⟩ := index_facts t
  show V c main_v7 (((cfg1.win 2).blk t).view.emb (ix2 p (0 : Fin 1))) = V c main_v7 (ix2 P (0 : Fin 1))
  refine congrArg (V c main_v7) (funext fun a => Fin.ext ?_)
  match a with
  | ⟨0, _⟩ => show win1_2.index t (0 : Fin 2) * 2000 + 1 * p.val = P.val; omega
  | ⟨1, _⟩ => show win1_2.index t (1 : Fin 2) * 1 + 1 * 0 = 0; omega

/-- A whole-array window's block is the array. -/
theorem read_wl (c : Dev nD) (t : Fin cfg1.N) (k q : Fin 90) : iblk1 V c 3 t (ix2 k q) = V c main_v32 (ix2 k q) := by
  obtain ⟨-, -, -, -, -, -, e0, e1, -⟩ := index_facts t
  show V c main_v32 (((cfg1.win 3).blk t).view.emb (ix2 k q)) = V c main_v32 (ix2 k q)
  refine congrArg (V c main_v32) (funext fun a => Fin.ext ?_)
  match a with
  | ⟨0, _⟩ => show win1_3.index t (0 : Fin 2) * 90 + 1 * k.val = k.val; omega
  | ⟨1, _⟩ => show win1_3.index t (1 : Fin 2) * 90 + 1 * q.val = q.val; omega

theorem read_b (c : Dev nD) (t : Fin cfg1.N) (q : Fin 90) : iblk1 V c 4 t (ix2 (0 : Fin 1) q) = V c main_v34 (ix2 (0 : Fin 1) q) := by
  obtain ⟨-, -, -, -, -, -, -, -, e0, e1, -⟩ := index_facts t
  show V c main_v34 (((cfg1.win 4).blk t).view.emb (ix2 (0 : Fin 1) q)) = V c main_v34 (ix2 (0 : Fin 1) q)
  refine congrArg (V c main_v34) (funext fun a => Fin.ext ?_)
  match a with
  | ⟨0, _⟩ => show win1_4.index t (0 : Fin 2) * 1 + 1 * 0 = 0; omega
  | ⟨1, _⟩ => show win1_4.index t (1 : Fin 2) * 90 + 1 * q.val = q.val; omega

theorem read_wr (c : Dev nD) (t : Fin cfg1.N) (k q : Fin 90) : iblk1 V c 5 t (ix2 k q) = V c main_v33 (ix2 k q) := by
  obtain ⟨-, -, -, -, -, -, -, -, -, -, e0, e1, -⟩ := index_facts t
  show V c main_v33 (((cfg1.win 5).blk t).view.emb (ix2 k q)) = V c main_v33 (ix2 k q)
  refine congrArg (V c main_v33) (funext fun a => Fin.ext ?_)
  match a with
  | ⟨0, _⟩ => show win1_5.index t (0 : Fin 2) * 90 + 1 * k.val = k.val; omega
  | ⟨1, _⟩ => show win1_5.index t (1 : Fin 2) * 90 + 1 * q.val = q.val; omega

/-- WHAT POINT `t` WRITES BACK is its row block of the layer of the arrays the region was entered on. -/
theorem flushed_eq (c : Dev nD) (t : Fin cfg1.N) :
    (dat1 V c).flushed 6 t = ((cfg1.win 6).blk t).view.read (Elt Ideal)
      (Sage.sageLayer 50000 (V c main_v21) (V c main_v31) (V c main_v7) (V c main_v32) (V c main_v34) (V c main_v33)) := by
  show (cfg1.win 6).cut (grid1.coords t) ((dat1 V c).after 6 t) = _
  rw [after1_6]
  unfold out1_6
  rw [View.canon_unit_zero offsets_zero]
  simp only [View.ld_unit_zero (S := S2000x90) offsets_zero, View.ld_unit_zero (S := S2000x1) offsets_zero,
    View.ld_unit_zero (S := S90x90) offsets_zero, View.ld_unit_zero (S := S1x90) offsets_zero]
  rw [Cert.KernelIdeal.Blocks.layerBlock1]
  obtain ⟨-, -, -, -, -, -, -, -, -, -, -, -, e12, e13⟩ := index_facts t
  funext y
  obtain ⟨p, q, rfl⟩ : ∃ (p : Fin 2000) (q : Fin 90), y = ix2 p q := ⟨y 0, y 1, eq_ix2 y⟩
  have hp : p.val < 2000 := p.isLt
  have hemb : ((cfg1.win 6).blk t).view.emb (ix2 p q)
      = ix2 (⟨win1_6.index t (0 : Fin 2) * 2000 + p.val, by omega⟩ : Fin 50000) q := by
    funext a; apply Fin.ext
    match a with
    | ⟨0, _⟩ => show win1_6.index t (0 : Fin 2) * 2000 + 1 * p.val = win1_6.index t (0 : Fin 2) * 2000 + p.val; omega
    | ⟨1, _⟩ => show win1_6.index t (1 : Fin 2) * 90 + 1 * q.val = q.val; omega
  show Sage.sageLayer 2000 (iblk1 V c 0 t) (iblk1 V c 1 t) (iblk1 V c 2 t) (iblk1 V c 3 t) (iblk1 V c 4 t) (iblk1 V c 5 t) (ix2 p q)
    = Sage.sageLayer 50000 (V c main_v21) (V c main_v31) (V c main_v7) (V c main_v32) (V c main_v34) (V c main_v33)
        (((cfg1.win 6).blk t).view.emb (ix2 p q))
  rw [hemb]
  exact Sage.sageLayer_rows 2000 50000 (iblk1 V c 0 t) (iblk1 V c 1 t) (iblk1 V c 2 t) (iblk1 V c 3 t) (iblk1 V c 4 t) (iblk1 V c 5 t)
    (V c main_v21) (V c main_v31) (V c main_v7) (V c main_v32) (V c main_v34) (V c main_v33) p ⟨win1_6.index t (0 : Fin 2) * 2000 + p.val, by omega⟩ q
    (fun k => read_x V c t p k _ rfl) (fun k => read_s V c t p k _ rfl) (read_cnt V c t p _ rfl)
    (fun k => read_wl V c t k q) (read_b V c t q) (fun k => read_wr V c t k q)

/-- An index of the result array is in point `t`'s block iff each coordinate is in the block's range on its axis. -/
theorem mem_block (t : Fin cfg1.N) (i : S50000x90.Idx) :
    i ∈ ((cfg1.win 6).blk t).view.set ↔ ∀ a : Fin 2, win1_6.index t a * S2000x90.size a ≤ (i a).val ∧ (i a).val < win1_6.index t a * S2000x90.size a + S2000x90.size a := by
  show i ∈ ((View.whole main_v35).slice (win1_6.rect t)).set ↔ _
  rw [View.set_slice_whole, Rect.mem_set_unit]
  exact Iff.rfl

/-- Every entry of the result array is in the block of the point whose row block holds its row. -/
theorem covered (i : S50000x90.Idx) : ∃ t : Fin cfg1.N, (cfg1.win 6).flush t = true ∧ i ∈ ((cfg1.win 6).blk t).view.set := by
  have hi0 : (i 0).val < 50000 := (i 0).isLt
  have hi1 : (i 1).val < 90 := (i 1).isLt
  obtain ⟨t, ht⟩ := index_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 90 ≤ (i 1).val ∧ (i 1).val < win1_6.index t (1 : Fin 2) * 90 + 90; omega

/-- THE RESULT ARRAY after the region: the layer of the arrays the region was entered on. -/
theorem result (c : Dev nD) :
    (dat1 V c).arrAt 6 cfg1.N
      = Sage.sageLayer 50000 (V c main_v21) (V c main_v31) (V c main_v7) (V c main_v32) (V c main_v34) (V c main_v33) :=
  (dat1 V c).arrAt_eq_of_cover 6 _ (fun t _ => flushed_eq V c t) covered

end Cert.KernelIdeal.Layer1

end
-- ==== Proof.KFold2.lean ====
/-
  The kernel's program across its second host stretch and second layer region, buffer by buffer.

  The stretch gathers the source rows of the features the previous layer left and adds them at the edge targets,
  lays this layer's two weight matrices out as [input, output] and reshapes its bias to one row; everything else it
  leaves alone. The region then leaves its result array at the layer of those features (KLayer1.lean at these entry
  contents). The edge arrays, the in-degree column and the arguments still to be read are carried across both.
-/
import proofs.«430828_j23476291240659_1_alg».proof.Proof.KFold1
import proofs.«430828_j23476291240659_1_alg».proof.Proof.KLayer1

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Cert.ReferenceIdeal.Net

variable (m : (ℓ : Loc nD τ sig) → Buf (Elt Ideal) ℓ) (ρ : Dev nD → PrngReg) (c : Dev nD)

/-! ## After the second host stretch -/

theorem W3_sum : W3 m ρ c (Proc.devRef .tc main_v31) = neighbourSum (h1 m c) (m ((c : Thread nD τ).loc main_arg1)) := by
  show StableHlo.after hostOps1 (W2 m ρ c) (Proc.devRef .tc main_v31) = _
  dsimp only [hostOps1]
  after_results_simp
  rw [W2_src m ρ c, W2_dst m ρ c, W2_h1 m ρ c]
  rfl

theorem W3_wl : W3 m ρ c (Proc.devRef .tc main_v32) = tr90 (m ((c : Thread nD τ).loc main_arg6)) := by
  show StableHlo.after hostOps1 (W2 m ρ c) (Proc.devRef .tc main_v32) = _
  dsimp only [hostOps1]
  after_results_simp
  rw [W2_arg6 m ρ c]
  rfl

theorem W3_wr : W3 m ρ c (Proc.devRef .tc main_v33) = tr90 (m ((c : Thread nD τ).loc main_arg8)) := by
  show StableHlo.after hostOps1 (W2 m ρ c) (Proc.devRef .tc main_v33) = _
  dsimp only [hostOps1]
  after_results_simp
  rw [W2_arg8 m ρ c]
  rfl

theorem W3_b : W3 m ρ c (Proc.devRef .tc main_v34) = row90 (m ((c : Thread nD τ).loc main_arg7)) := by
  show StableHlo.after hostOps1 (W2 m ρ c) (Proc.devRef .tc main_v34) = _
  dsimp only [hostOps1]
  after_results_simp
  rw [W2_arg7 m ρ c]
  exact Cert.LibBroadcast.shapeCast_row_eq_inDim _ _ _

theorem W3_h1 : W3 m ρ c (Proc.devRef .tc main_v21) = h1 m c := by
  refine Eq.trans ?_ (W2_h1 m ρ c)
  host_keeps main_v21
theorem W3_degree : W3 m ρ c (Proc.devRef .tc main_v7) = degree (m ((c : Thread nD τ).loc main_arg1)) := by
  refine Eq.trans ?_ (W2_degree m ρ c)
  host_keeps main_v7
theorem W3_src : W3 m ρ c (Proc.devRef .tc main_v1) = srcOf (m ((c : Thread nD τ).loc main_arg1)) := by
  refine Eq.trans ?_ (W2_src m ρ c)
  host_keeps main_v1
theorem W3_dst : W3 m ρ c (Proc.devRef .tc main_v3) = dstOf (m ((c : Thread nD τ).loc main_arg1)) := by
  refine Eq.trans ?_ (W2_dst m ρ c)
  host_keeps main_v3
theorem W3_arg2 : W3 m ρ c (Proc.devRef .tc main_arg2) = m ((c : Thread nD τ).loc main_arg2) := by
  refine Eq.trans ?_ (W2_arg2 m ρ c)
  host_keeps main_arg2
theorem W3_arg9 : W3 m ρ c (Proc.devRef .tc main_arg9) = m ((c : Thread nD τ).loc main_arg9) := by
  refine Eq.trans ?_ (W2_arg9 m ρ c)
  host_keeps main_arg9
theorem W3_arg10 : W3 m ρ c (Proc.devRef .tc main_arg10) = m ((c : Thread nD τ).loc main_arg10) := by
  refine Eq.trans ?_ (W2_arg10 m ρ c)
  host_keeps main_arg10
theorem W3_arg11 : W3 m ρ c (Proc.devRef .tc main_arg11) = m ((c : Thread nD τ).loc main_arg11) := by
  refine Eq.trans ?_ (W2_arg11 m ρ c)
  host_keeps main_arg11
theorem W3_arg12 : W3 m ρ c (Proc.devRef .tc main_arg12) = m ((c : Thread nD τ).loc main_arg12) := by
  refine Eq.trans ?_ (W2_arg12 m ρ c)
  host_keeps main_arg12
theorem W3_arg13 : W3 m ρ c (Proc.devRef .tc main_arg13) = m ((c : Thread nD τ).loc main_arg13) := by
  refine Eq.trans ?_ (W2_arg13 m ρ c)
  host_keeps main_arg13
theorem W3_arg14 : W3 m ρ c (Proc.devRef .tc main_arg14) = m ((c : Thread nD τ).loc main_arg14) := by
  refine Eq.trans ?_ (W2_arg14 m ρ c)
  host_keeps main_arg14
theorem W3_arg15 : W3 m ρ c (Proc.devRef .tc main_arg15) = m ((c : Thread nD τ).loc main_arg15) := by
  refine Eq.trans ?_ (W2_arg15 m ρ c)
  host_keeps main_arg15

/-! ## After the second layer region -/

/-- The region's result array holds the next layer of the features it was entered on. -/
theorem W4_h2 : W4 m ρ c (Proc.devRef .tc main_v35) = h2 m c := by
  refine (W4_arr m ρ c 6).trans ((Cert.KernelIdeal.Layer1.result (V3 m ρ) c).trans ?_)
  show Sage.sageLayer 50000 (W3 m ρ c (Proc.devRef .tc main_v21)) (W3 m ρ c (Proc.devRef .tc main_v31)) (W3 m ρ c (Proc.devRef .tc main_v7))
    (W3 m ρ c (Proc.devRef .tc main_v32)) (W3 m ρ c (Proc.devRef .tc main_v34)) (W3 m ρ c (Proc.devRef .tc main_v33)) = _
  rw [W3_h1 m ρ c, W3_sum m ρ c, W3_degree m ρ c, W3_wl m ρ c, W3_b m ρ c, W3_wr m ρ c]
  rfl

theorem W4_src : W4 m ρ c (Proc.devRef .tc main_v1) = srcOf (m ((c : Thread nD τ).loc main_arg1)) :=
  (W4_of_ne m ρ c main_v1 (by decide)).trans (W3_src m ρ c)
theorem W4_dst : W4 m ρ c (Proc.devRef .tc main_v3) = dstOf (m ((c : Thread nD τ).loc main_arg1)) :=
  (W4_of_ne m ρ c main_v3 (by decide)).trans (W3_dst m ρ c)
/-- The in-degree column is an input window of the region: it ends as it was entered. -/
theorem W4_degree : W4 m ρ c (Proc.devRef .tc main_v7) = degree (m ((c : Thread nD τ).loc main_arg1)) :=
  (W4_arr m ρ c 2).trans (((dat1 (V3 m ρ) c).arrAt_in 2 rfl _).trans ((A_eq1 (V3 m ρ) c 2).trans (W3_degree m ρ c)))
theorem W4_arg2 : W4 m ρ c (Proc.devRef .tc main_arg2) = m ((c : Thread nD τ).loc main_arg2) :=
  (W4_of_ne m ρ c main_arg2 (by decide)).trans (W3_arg2 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)

end Cert.KernelIdeal.Fold

end
-- ==== Proof.KLayer2.lean ====
/-
  The third layer kernel leaves its result array at the specification's layer of the arrays it was launched on.

  The kernel runs on a grid of 25 points; at point `t` it reads rows `2000·t … 2000·t + 1999` of the node
  features, of the neighbour sums and of the in-degree column, the two whole weight matrices and the whole bias row,
  and writes back rows `2000·t … 2000·t + 1999` of the result. What it writes back is the layer on those rows
  (KPayload.lean), and a row of the layer depends only on the same row of the three node arrays, so it is the same
  rows of the layer on all 50000 nodes. The 25 row blocks cover every row, hence the array ends holding the layer of
  the whole arrays. The contents `V` the region is entered from stay a parameter.
-/
import proofs.«430828_j23476291240659_1_alg».proof.Proof.Gen.KernelIdeal.Frame
import proofs.«430828_j23476291240659_1_alg».proof.Proof.KPayload

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the 25 points: the three node windows sit on the result's row block, the
    weights and the bias on their one block, and the result's row block number is at most 24. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 24 ∧ win2_6.index t (1 : Fin 2) = 0 :=
  (by decide +kernel : ∀ t : Fin grid2.N, _)

/-- Every row block is some point's. -/
theorem index_onto : ∀ q : Fin 25, ∃ t : Fin cfg2.N, win2_6.index t = ![q.val, 0] :=
  (by decide +kernel : ∀ q : Fin 25, ∃ t : Fin grid2.N, win2_6.index t = ![q.val, 0])

/-- A node window's block at point `t`, read at row `p` of the block, is the array at row `2000·(block number) + p`. -/
theorem read_x (c : Dev nD) (t : Fin cfg2.N) (p : Fin 2000) (k : Fin 90) (P : Fin 50000)
    (hP : P.val = win2_6.index t (0 : Fin 2) * 2000 + p.val) :
    iblk2 V c 0 t (ix2 p k) = V c main_v35 (ix2 P k) := by
  obtain ⟨e0, e1, -⟩ := index_facts t
  show V c main_v35 (((cfg2.win 0).blk t).view.emb (ix2 p k)) = V c main_v35 (ix2 P k)
  refine congrArg (V c main_v35) (funext fun a => Fin.ext ?_)
  match a with
  | ⟨0, _⟩ => show win2_0.index t (0 : Fin 2) * 2000 + 1 * p.val = P.val; omega
  | ⟨1, _⟩ => show win2_0.index t (1 : Fin 2) * 90 + 1 * k.val = k.val; omega

theorem read_s (c : Dev nD) (t : Fin cfg2.N) (p : Fin 2000) (k : Fin 90) (P : Fin 50000)
    (hP : P.val = win2_6.index t (0 : Fin 2) * 2000 + p.val) :
    iblk2 V c 1 t (ix2 p k) = V c main_v45 (ix2 P k) := by
  obtain ⟨-, -, e0, e1, -⟩ := index_facts t
  show V c main_v45 (((cfg2.win 1).blk t).view.emb (ix2 p k)) = V c main_v45 (ix2 P k)
  refine congrArg (V c main_v45) (funext fun a => Fin.ext ?_)
  match a with
  | ⟨0, _⟩ => show win2_1.index t (0 : Fin 2) * 2000 + 1 * p.val = P.val; omega
  | ⟨1, _⟩ => show win2_1.index t (1 : Fin 2) * 90 + 1 * k.val = k.val; omega

theorem read_cnt (c : Dev nD) (t : Fin cfg2.N) (p : Fin 2000) (P : Fin 50000)
    (hP : P.val = win2_6.index t (0 : Fin 2) * 2000 + p.val) :
    iblk2 V c 2 t (ix2 p (0 : Fin 1)) = V c main_v7 (ix2 P (0 : Fin 1)) := by
  obtain ⟨-, -, -, -, e0, e1, -⟩ := index_facts t
  show V c main_v7 (((cfg2.win 2).blk t).view.emb (ix2 p (0 : Fin 1))) = V c main_v7 (ix2 P (0 : Fin 1))
  refine congrArg (V c main_v7) (funext fun a => Fin.ext ?_)
  match a with
  | ⟨0, _⟩ => show win2_2.index t (0 : Fin 2) * 2000 + 1 * p.val = P.val; omega
  | ⟨1, _⟩ => show win2_2.index t (1 : Fin 2) * 1 + 1 * 0 = 0; omega

/-- A whole-array window's block is the array. -/
theorem read_wl (c : Dev nD) (t : Fin cfg2.N) (k q : Fin 90) : iblk2 V c 3 t (ix2 k q) = V c main_v46 (ix2 k q) := by
  obtain ⟨-, -, -, -, -, -, e0, e1, -⟩ := index_facts t
  show V c main_v46 (((cfg2.win 3).blk t).view.emb (ix2 k q)) = V c main_v46 (ix2 k q)
  refine congrArg (V c main_v46) (funext fun a => Fin.ext ?_)
  match a with
  | ⟨0, _⟩ => show win2_3.index t (0 : Fin 2) * 90 + 1 * k.val = k.val; omega
  | ⟨1, _⟩ => show win2_3.index t (1 : Fin 2) * 90 + 1 * q.val = q.val; omega

theorem read_b (c : Dev nD) (t : Fin cfg2.N) (q : Fin 90) : iblk2 V c 4 t (ix2 (0 : Fin 1) q) = V c main_v48 (ix2 (0 : Fin 1) q) := by
  obtain ⟨-, -, -, -, -, -, -, -, e0, e1, -⟩ := index_facts t
  show V c main_v48 (((cfg2.win 4).blk t).view.emb (ix2 (0 : Fin 1) q)) = V c main_v48 (ix2 (0 : Fin 1) q)
  refine congrArg (V c main_v48) (funext fun a => Fin.ext ?_)
  match a with
  | ⟨0, _⟩ => show win2_4.index t (0 : Fin 2) * 1 + 1 * 0 = 0; omega
  | ⟨1, _⟩ => show win2_4.index t (1 : Fin 2) * 90 + 1 * q.val = q.val; omega

theorem read_wr (c : Dev nD) (t : Fin cfg2.N) (k q : Fin 90) : iblk2 V c 5 t (ix2 k q) = V c main_v47 (ix2 k q) := by
  obtain ⟨-, -, -, -, -, -, -, -, -, -, e0, e1, -⟩ := index_facts t
  show V c main_v47 (((cfg2.win 5).blk t).view.emb (ix2 k q)) = V c main_v47 (ix2 k q)
  refine congrArg (V c main_v47) (funext fun a => Fin.ext ?_)
  match a with
  | ⟨0, _⟩ => show win2_5.index t (0 : Fin 2) * 90 + 1 * k.val = k.val; omega
  | ⟨1, _⟩ => show win2_5.index t (1 : Fin 2) * 90 + 1 * q.val = q.val; omega

/-- WHAT POINT `t` WRITES BACK is its row block of the layer of the arrays the region was entered on. -/
theorem flushed_eq (c : Dev nD) (t : Fin cfg2.N) :
    (dat2 V c).flushed 6 t = ((cfg2.win 6).blk t).view.read (Elt Ideal)
      (Sage.sageLayer 50000 (V c main_v35) (V c main_v45) (V c main_v7) (V c main_v46) (V c main_v48) (V c main_v47)) := by
  show (cfg2.win 6).cut (grid2.coords t) ((dat2 V c).after 6 t) = _
  rw [after2_6]
  unfold out2_6
  rw [View.canon_unit_zero offsets_zero]
  simp only [View.ld_unit_zero (S := S2000x90) offsets_zero, View.ld_unit_zero (S := S2000x1) offsets_zero,
    View.ld_unit_zero (S := S90x90) offsets_zero, View.ld_unit_zero (S := S1x90) offsets_zero]
  rw [Cert.KernelIdeal.Blocks.layerBlock2]
  obtain ⟨-, -, -, -, -, -, -, -, -, -, -, -, e12, e13⟩ := index_facts t
  funext y
  obtain ⟨p, q, rfl⟩ : ∃ (p : Fin 2000) (q : Fin 90), y = ix2 p q := ⟨y 0, y 1, eq_ix2 y⟩
  have hp : p.val < 2000 := p.isLt
  have hemb : ((cfg2.win 6).blk t).view.emb (ix2 p q)
      = ix2 (⟨win2_6.index t (0 : Fin 2) * 2000 + p.val, by omega⟩ : Fin 50000) q := by
    funext a; apply Fin.ext
    match a with
    | ⟨0, _⟩ => show win2_6.index t (0 : Fin 2) * 2000 + 1 * p.val = win2_6.index t (0 : Fin 2) * 2000 + p.val; omega
    | ⟨1, _⟩ => show win2_6.index t (1 : Fin 2) * 90 + 1 * q.val = q.val; omega
  show Sage.sageLayer 2000 (iblk2 V c 0 t) (iblk2 V c 1 t) (iblk2 V c 2 t) (iblk2 V c 3 t) (iblk2 V c 4 t) (iblk2 V c 5 t) (ix2 p q)
    = Sage.sageLayer 50000 (V c main_v35) (V c main_v45) (V c main_v7) (V c main_v46) (V c main_v48) (V c main_v47)
        (((cfg2.win 6).blk t).view.emb (ix2 p q))
  rw [hemb]
  exact Sage.sageLayer_rows 2000 50000 (iblk2 V c 0 t) (iblk2 V c 1 t) (iblk2 V c 2 t) (iblk2 V c 3 t) (iblk2 V c 4 t) (iblk2 V c 5 t)
    (V c main_v35) (V c main_v45) (V c main_v7) (V c main_v46) (V c main_v48) (V c main_v47) p ⟨win2_6.index t (0 : Fin 2) * 2000 + p.val, by omega⟩ q
    (fun k => read_x V c t p k _ rfl) (fun k => read_s V c t p k _ rfl) (read_cnt V c t p _ rfl)
    (fun k => read_wl V c t k q) (read_b V c t q) (fun k => read_wr V c t k q)

/-- An index of the result array is in point `t`'s block iff each coordinate is in the block's range on its axis. -/
theorem mem_block (t : Fin cfg2.N) (i : S50000x90.Idx) :
    i ∈ ((cfg2.win 6).blk t).view.set ↔ ∀ a : Fin 2, win2_6.index t a * S2000x90.size a ≤ (i a).val ∧ (i a).val < win2_6.index t a * S2000x90.size a + S2000x90.size a := by
  show i ∈ ((View.whole main_v49).slice (win2_6.rect t)).set ↔ _
  rw [View.set_slice_whole, Rect.mem_set_unit]
  exact Iff.rfl

/-- Every entry of the result array is in the block of the point whose row block holds its row. -/
theorem covered (i : S50000x90.Idx) : ∃ t : Fin cfg2.N, (cfg2.win 6).flush t = true ∧ i ∈ ((cfg2.win 6).blk t).view.set := by
  have hi0 : (i 0).val < 50000 := (i 0).isLt
  have hi1 : (i 1).val < 90 := (i 1).isLt
  obtain ⟨t, ht⟩ := index_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_block]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 90 ≤ (i 1).val ∧ (i 1).val < win2_6.index t (1 : Fin 2) * 90 + 90; omega

/-- THE RESULT ARRAY after the region: the layer of the arrays the region was entered on. -/
theorem result (c : Dev nD) :
    (dat2 V c).arrAt 6 cfg2.N
      = Sage.sageLayer 50000 (V c main_v35) (V c main_v45) (V c main_v7) (V c main_v46) (V c main_v48) (V c main_v47) :=
  (dat2 V c).arrAt_eq_of_cover 6 _ (fun t _ => flushed_eq V c t) covered

end Cert.KernelIdeal.Layer2

end
-- ==== Proof.KFold3.lean ====
/-
  The kernel's program across its third host stretch and third layer region, buffer by buffer.

  The stretch gathers the source rows of the features the previous layer left and adds them at the edge targets,
  lays this layer's two weight matrices out as [input, output] and reshapes its bias to one row; everything else it
  leaves alone. The region then leaves its result array at the layer of those features (KLayer2.lean at these entry
  contents). The edge arrays, the in-degree column and the arguments still to be read are carried across both.
-/
import proofs.«430828_j23476291240659_1_alg».proof.Proof.KFold2
import proofs.«430828_j23476291240659_1_alg».proof.Proof.KLayer2

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Cert.ReferenceIdeal.Net

variable (m : (ℓ : Loc nD τ sig) → Buf (Elt Ideal) ℓ) (ρ : Dev nD → PrngReg) (c : Dev nD)

/-! ## After the third host stretch -/

theorem W5_sum : W5 m ρ c (Proc.devRef .tc main_v45) = neighbourSum (h2 m c) (m ((c : Thread nD τ).loc main_arg1)) := by
  show StableHlo.after hostOps2 (W4 m ρ c) (Proc.devRef .tc main_v45) = _
  dsimp only [hostOps2]
  after_results_simp
  rw [W4_src m ρ c, W4_dst m ρ c, W4_h2 m ρ c]
  rfl

theorem W5_wl : W5 m ρ c (Proc.devRef .tc main_v46) = tr90 (m ((c : Thread nD τ).loc main_arg9)) := by
  show StableHlo.after hostOps2 (W4 m ρ c) (Proc.devRef .tc main_v46) = _
  dsimp only [hostOps2]
  after_results_simp
  rw [W4_arg9 m ρ c]
  rfl

theorem W5_wr : W5 m ρ c (Proc.devRef .tc main_v47) = tr90 (m ((c : Thread nD τ).loc main_arg11)) := by
  show StableHlo.after hostOps2 (W4 m ρ c) (Proc.devRef .tc main_v47) = _
  dsimp only [hostOps2]
  after_results_simp
  rw [W4_arg11 m ρ c]
  rfl

theorem W5_b : W5 m ρ c (Proc.devRef .tc main_v48) = row90 (m ((c : Thread nD τ).loc main_arg10)) := by
  show StableHlo.after hostOps2 (W4 m ρ c) (Proc.devRef .tc main_v48) = _
  dsimp only [hostOps2]
  after_results_simp
  rw [W4_arg10 m ρ c]
  exact Cert.LibBroadcast.shapeCast_row_eq_inDim _ _ _

theorem W5_h2 : W5 m ρ c (Proc.devRef .tc main_v35) = h2 m c := by
  refine Eq.trans ?_ (W4_h2 m ρ c)
  host_keeps main_v35
theorem W5_degree : W5 m ρ c (Proc.devRef .tc main_v7) = degree (m ((c : Thread nD τ).loc main_arg1)) := by
  refine Eq.trans ?_ (W4_degree m ρ c)
  host_keeps main_v7
theorem W5_src : W5 m ρ c (Proc.devRef .tc main_v1) = srcOf (m ((c : Thread nD τ).loc main_arg1)) := by
  refine Eq.trans ?_ (W4_src m ρ c)
  host_keeps main_v1
theorem W5_dst : W5 m ρ c (Proc.devRef .tc main_v3) = dstOf (m ((c : Thread nD τ).loc main_arg1)) := by
  refine Eq.trans ?_ (W4_dst m ρ c)
  host_keeps main_v3
theorem W5_arg2 : W5 m ρ c (Proc.devRef .tc main_arg2) = m ((c : Thread nD τ).loc main_arg2) := by
  refine Eq.trans ?_ (W4_arg2 m ρ c)
  host_keeps main_arg2
theorem W5_arg12 : W5 m ρ c (Proc.devRef .tc main_arg12) = m ((c : Thread nD τ).loc main_arg12) := by
  refine Eq.trans ?_ (W4_arg12 m ρ c)
  host_keeps main_arg12
theorem W5_arg13 : W5 m ρ c (Proc.devRef .tc main_arg13) = m ((c : Thread nD τ).loc main_arg13) := by
  refine Eq.trans ?_ (W4_arg13 m ρ c)
  host_keeps main_arg13
theorem W5_arg14 : W5 m ρ c (Proc.devRef .tc main_arg14) = m ((c : Thread nD τ).loc main_arg14) := by
  refine Eq.trans ?_ (W4_arg14 m ρ c)
  host_keeps main_arg14
theorem W5_arg15 : W5 m ρ c (Proc.devRef .tc main_arg15) = m ((c : Thread nD τ).loc main_arg15) := by
  refine Eq.trans ?_ (W4_arg15 m ρ c)
  host_keeps main_arg15

/-! ## After the third layer region -/

/-- The region's result array holds the next layer of the features it was entered on. -/
theorem W6_h3 : W6 m ρ c (Proc.devRef .tc main_v49) = h3 m c := by
  refine (W6_arr m ρ c 6).trans ((Cert.KernelIdeal.Layer2.result (V5 m ρ) c).trans ?_)
  show Sage.sageLayer 50000 (W5 m ρ c (Proc.devRef .tc main_v35)) (W5 m ρ c (Proc.devRef .tc main_v45)) (W5 m ρ c (Proc.devRef .tc main_v7))
    (W5 m ρ c (Proc.devRef .tc main_v46)) (W5 m ρ c (Proc.devRef .tc main_v48)) (W5 m ρ c (Proc.devRef .tc main_v47)) = _
  rw [W5_h2 m ρ c, W5_sum m ρ c, W5_degree m ρ c, W5_wl m ρ c, W5_b m ρ c, W5_wr m ρ c]
  rfl

theorem W6_src : W6 m ρ c (Proc.devRef .tc main_v1) = srcOf (m ((c : Thread nD τ).loc main_arg1)) :=
  (W6_of_ne m ρ c main_v1 (by decide)).trans (W5_src m ρ c)
theorem W6_dst : W6 m ρ c (Proc.devRef .tc main_v3) = dstOf (m ((c : Thread nD τ).loc main_arg1)) :=
  (W6_of_ne m ρ c main_v3 (by decide)).trans (W5_dst m ρ c)
/-- The in-degree column is an input window of the region: it ends as it was entered. -/
theorem W6_degree : W6 m ρ c (Proc.devRef .tc main_v7) = degree (m ((c : Thread nD τ).loc main_arg1)) :=
  (W6_arr m ρ c 2).trans (((dat2 (V5 m ρ) c).arrAt_in 2 rfl _).trans ((A_eq2 (V5 m ρ) c 2).trans (W5_degree m ρ c)))
theorem W6_arg2 : W6 m ρ c (Proc.devRef .tc main_arg2) = m ((c : Thread nD τ).loc main_arg2) :=
  (W6_of_ne m ρ c main_arg2 (by decide)).trans (W5_arg2 m ρ c)
theorem W6_arg12 : W6 m ρ c (Proc.devRef .tc main_arg12) = m ((c : Thread nD τ).loc main_arg12) :=
  (W6_of_ne m ρ c main_arg12 (by decide)).trans (W5_arg12 m ρ c)
theorem W6_arg13 : W6 m ρ c (Proc.devRef .tc main_arg13) = m ((c : Thread nD τ).loc main_arg13) :=
  (W6_of_ne m ρ c main_arg13 (by decide)).trans (W5_arg13 m ρ c)
theorem W6_arg14 : W6 m ρ c (Proc.devRef .tc main_arg14) = m ((c : Thread nD τ).loc main_arg14) :=
  (W6_of_ne m ρ c main_arg14 (by decide)).trans (W5_arg14 m ρ c)
theorem W6_arg15 : W6 m ρ c (Proc.devRef .tc main_arg15) = m ((c : Thread nD τ).loc main_arg15) :=
  (W6_of_ne m ρ c main_arg15 (by decide)).trans (W5_arg15 m ρ c)

end Cert.KernelIdeal.Fold

end
-- ==== Proof.LibProduct.lean ====
/-
  A matrix product into a zero accumulator is the plain product.

  Over the extended reals a product that starts from the zero accumulator and the product computed with no
  accumulator are the same sum over the contracted index, entry by entry.
-/
import Idealize.ShloMosaic.PureOps.Ideal
import Idealize.ShloMosaic.PureOps.Ideal.Laws

noncomputable section

namespace Cert.LibProduct

open Idealize.ShloMosaic

/-- The product into the all-zero accumulator equals the accumulator-free product of the same operands. -/
theorem matmul_zero_eq_dotGeneral {sl sr so : Shape} {φ₁ φ₂ : FTy} (d : DotDims sl sr so)
    (a : FVec Ideal sl φ₁) (w : FVec Ideal sr φ₂) :
    matmul d none a w (constant so .f32 0x00000000#32) = Host.dotGeneral d none a w := by
  funext j
  simp only [matmul, Host.dotGeneral]
  rw [Ideal.matmul_constant_zero_apply, Ideal.dotGeneral_apply]

end Cert.LibProduct

end
-- ==== Proof.KHead.lean ====
/-
  What the read-out kernel stores is the reference's read-out of the same operands.

  The kernel runs at one grid point on whole arrays. Its operations differ from the reference's only in spelling:
  a shape cast of an array to its own shape and a narrowing of a product's operands to the shorter float format are
  the identity over the extended reals; a product into the zero accumulator is the accumulator-free product; a
  column or a row broadcast is the same function in either of its two spellings; a scalar splat is the broadcast of
  the scalar constant; and the vector and the array division are both the exact quotient.
-/
import proofs.«430828_j23476291240659_1_alg».proof.Proof.Gen.KernelIdeal.Skeleton
import proofs.«430828_j23476291240659_1_alg».proof.Proof.RefHead
import proofs.«430828_j23476291240659_1_alg».proof.Proof.LibBroadcast
import proofs.«430828_j23476291240659_1_alg».proof.Proof.LibProduct
import Idealize.ShloMosaic.Lib.Pipeline.Value

set_option maxRecDepth 16384

noncomputable section

namespace Cert.KernelIdeal.Blocks

open Cert.KernelIdeal Cert.KernelIdeal.Gen Idealize.ShloMosaic Idealize.ShloMosaic.ValueIdx

/-- Narrowing to a shorter float format is the identity over the extended reals. -/
theorem truncf_id {s : Shape} {φ ψ : FTy} (a : FVec Ideal s φ) (h : ψ.bits < φ.bits) :
    (truncf ψ a h : s.Idx → EReal) = a := rfl

/-- The read-out kernel's stored value is the reference's read-out of its operands. -/
theorem headBlock (gs : Vec Ideal S500x90 .f32) (gc : Vec Ideal S500x1 .f32) (w1 : Vec Ideal S90x32 .f32) (b1 : Vec Ideal S1x32 .f32)
    (w2 : Vec Ideal S32x1 .f32) (b2 : Vec Ideal S1x1 .f32) :
    k3_pay1 (F := Ideal) gs gc w1 b1 w2 b2 = Cert.ReferenceIdeal.Rows.headOps gs gc w1 b1 w2 b2 := by
  unfold k3_pay1 Cert.ReferenceIdeal.Rows.headOps
  simp only [shapeCast_self, truncf_id, Cert.LibProduct.matmul_zero_eq_dotGeneral]
  rw [Cert.LibBroadcast.broadcastTo_col_eq_inDim _ _ Cert.ReferenceIdeal.Gen.bcast_S500x1_S500x90_0_1,
    Cert.LibBroadcast.broadcastTo_row_eq_inDim b1 _ Cert.ReferenceIdeal.Gen.bcast_S1x32_S500x32_0_1,
    Cert.LibBroadcast.broadcastTo_row_eq_inDim b2 _ Cert.ReferenceIdeal.Gen.bcast_S1x1_S500x1_0_1]
  rfl

end Cert.KernelIdeal.Blocks

end
-- ==== Proof.KReadout.lean ====
/-
  The read-out kernel leaves its result array at the reference's read-out of the arrays it was launched on.

  The kernel runs at a single grid point and every window is its whole array, so each block the body loads is the
  array itself and the block it writes back is the whole result: the array ends holding the read-out
  (KHead.lean) of the six arrays the region was entered on. The contents `V` the region is entered from stay a
  parameter.
-/
import proofs.«430828_j23476291240659_1_alg».proof.Proof.Gen.KernelIdeal.Frame
import proofs.«430828_j23476291240659_1_alg».proof.Proof.KHead

set_option maxRecDepth 16384

noncomputable section

namespace Cert.KernelIdeal.Readout

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps at the one point: every window sits on block (0, 0). -/
theorem index_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Each window's block at the point is its whole array. -/
theorem block_gs (c : Dev nD) (t : Fin cfg3.N) : iblk3 V c 0 t = V c main_v52 := by
  obtain ⟨e0, e1, -⟩ := index_facts t
  funext y
  show V c main_v52 (((cfg3.win 0).blk t).view.emb y) = V c main_v52 y
  refine congrArg (V c main_v52) (funext fun a => Fin.ext ?_)
  match a with
  | ⟨0, _⟩ => show win3_0.index t (0 : Fin 2) * 500 + 1 * (y 0).val = (y 0).val; omega
  | ⟨1, _⟩ => show win3_0.index t (1 : Fin 2) * 90 + 1 * (y 1).val = (y 1).val; omega

theorem block_gc (c : Dev nD) (t : Fin cfg3.N) : iblk3 V c 1 t = V c main_v56 := by
  obtain ⟨-, -, e0, e1, -⟩ := index_facts t
  funext y
  show V c main_v56 (((cfg3.win 1).blk t).view.emb y) = V c main_v56 y
  refine congrArg (V c main_v56) (funext fun a => Fin.ext ?_)
  match a with
  | ⟨0, _⟩ => show win3_1.index t (0 : Fin 2) * 500 + 1 * (y 0).val = (y 0).val; omega
  | ⟨1, _⟩ => show win3_1.index t (1 : Fin 2) * 1 + 1 * (y 1).val = (y 1).val; omega

theorem block_w1 (c : Dev nD) (t : Fin cfg3.N) : iblk3 V c 2 t = V c main_v57 := by
  obtain ⟨-, -, -, -, e0, e1, -⟩ := index_facts t
  funext y
  show V c main_v57 (((cfg3.win 2).blk t).view.emb y) = V c main_v57 y
  refine congrArg (V c main_v57) (funext fun a => Fin.ext ?_)
  match a with
  | ⟨0, _⟩ => show win3_2.index t (0 : Fin 2) * 90 + 1 * (y 0).val = (y 0).val; omega
  | ⟨1, _⟩ => show win3_2.index t (1 : Fin 2) * 32 + 1 * (y 1).val = (y 1).val; omega

theorem block_b1 (c : Dev nD) (t : Fin cfg3.N) : iblk3 V c 3 t = V c main_v59 := by
  obtain ⟨-, -, -, -, -, -, e0, e1, -⟩ := index_facts t
  funext y
  show V c main_v59 (((cfg3.win 3).blk t).view.emb y) = V c main_v59 y
  refine congrArg (V c main_v59) (funext fun a => Fin.ext ?_)
  match a with
  | ⟨0, _⟩ => show win3_3.index t (0 : Fin 2) * 1 + 1 * (y 0).val = (y 0).val; omega
  | ⟨1, _⟩ => show win3_3.index t (1 : Fin 2) * 32 + 1 * (y 1).val = (y 1).val; omega

theorem block_w2 (c : Dev nD) (t : Fin cfg3.N) : iblk3 V c 4 t = V c main_v58 := by
  obtain ⟨-, -, -, -, -, -, -, -, e0, e1, -⟩ := index_facts t
  funext y
  show V c main_v58 (((cfg3.win 4).blk t).view.emb y) = V c main_v58 y
  refine congrArg (V c main_v58) (funext fun a => Fin.ext ?_)
  match a with
  | ⟨0, _⟩ => show win3_4.index t (0 : Fin 2) * 32 + 1 * (y 0).val = (y 0).val; omega
  | ⟨1, _⟩ => show win3_4.index t (1 : Fin 2) * 1 + 1 * (y 1).val = (y 1).val; omega

theorem block_b2 (c : Dev nD) (t : Fin cfg3.N) : iblk3 V c 5 t = V c main_v60 := by
  obtain ⟨-, -, -, -, -, -, -, -, -, -, e0, e1, -⟩ := index_facts t
  funext y
  show V c main_v60 (((cfg3.win 5).blk t).view.emb y) = V c main_v60 y
  refine congrArg (V c main_v60) (funext fun a => Fin.ext ?_)
  match a with
  | ⟨0, _⟩ => show win3_5.index t (0 : Fin 2) * 1 + 1 * (y 0).val = (y 0).val; omega
  | ⟨1, _⟩ => show win3_5.index t (1 : Fin 2) * 1 + 1 * (y 1).val = (y 1).val; omega

/-- WHAT THE POINT WRITES BACK is the whole read-out of the arrays the region was entered on. -/
theorem flushed_eq (c : Dev nD) (t : Fin cfg3.N) :
    (dat3 V c).flushed 6 t = ((cfg3.win 6).blk t).view.read (Elt Ideal)
      (Cert.ReferenceIdeal.Rows.headOps (V c main_v52) (V c main_v56) (V c main_v57) (V c main_v59) (V c main_v58) (V c main_v60)) := by
  show (cfg3.win 6).cut (grid3.coords t) ((dat3 V c).after 6 t) = _
  rw [after3_6]
  unfold out3_6
  rw [View.canon_unit_zero offsets_zero]
  simp only [View.ld_unit_zero (S := S500x90) offsets_zero, View.ld_unit_zero (S := S500x1) offsets_zero,
    View.ld_unit_zero (S := S90x32) offsets_zero, View.ld_unit_zero (S := S1x32) offsets_zero,
    View.ld_unit_zero (S := S32x1) offsets_zero, View.ld_unit_zero (S := S1x1) offsets_zero]
  rw [Cert.KernelIdeal.Blocks.headBlock, block_gs V c t, block_gc V c t, block_w1 V c t, block_b1 V c t, block_w2 V c t, block_b2 V c t]
  obtain ⟨-, -, -, -, -, -, -, -, -, -, -, -, e12, e13⟩ := index_facts t
  funext y
  show Cert.ReferenceIdeal.Rows.headOps (V c main_v52) (V c main_v56) (V c main_v57) (V c main_v59) (V c main_v58) (V c main_v60) y
    = Cert.ReferenceIdeal.Rows.headOps (V c main_v52) (V c main_v56) (V c main_v57) (V c main_v59) (V c main_v58) (V c main_v60)
        (((cfg3.win 6).blk t).view.emb y)
  refine congrArg _ (funext fun a => Fin.ext ?_)
  match a with
  | ⟨0, _⟩ => show (y 0).val = win3_6.index t (0 : Fin 2) * 500 + 1 * (y 0).val; omega
  | ⟨1, _⟩ => show (y 1).val = win3_6.index t (1 : Fin 2) * 1 + 1 * (y 1).val; omega

/-- An index of the result array is in the point's block iff each coordinate is in the block's range on its axis. -/
theorem mem_block (t : Fin cfg3.N) (i : S500x1.Idx) :
    i ∈ ((cfg3.win 6).blk t).view.set ↔ ∀ a : Fin 2, win3_6.index t a * S500x1.size a ≤ (i a).val ∧ (i a).val < win3_6.index t a * S500x1.size a + S500x1.size a := by
  show i ∈ ((View.whole main_v61).slice (win3_6.rect t)).set ↔ _
  rw [View.set_slice_whole, Rect.mem_set_unit]
  exact Iff.rfl

/-- Every entry of the result array is in the one point's block. -/
theorem covered (i : S500x1.Idx) : ∃ t : Fin cfg3.N, (cfg3.win 6).flush t = true ∧ i ∈ ((cfg3.win 6).blk t).view.set := by
  have hi0 : (i 0).val < 500 := (i 0).isLt
  have hi1 : (i 1).val < 1 := (i 1).isLt
  obtain ⟨-, -, -, -, -, -, -, -, -, -, -, -, e12, e13⟩ := index_facts t3_0
  refine ⟨t3_0, flush3_6 t3_0, ?_⟩
  rw [mem_block]
  intro a
  match a with
  | ⟨0, _⟩ => show win3_6.index t3_0 (0 : Fin 2) * 500 ≤ (i 0).val ∧ (i 0).val < win3_6.index t3_0 (0 : Fin 2) * 500 + 500; omega
  | ⟨1, _⟩ => show win3_6.index t3_0 (1 : Fin 2) * 1 ≤ (i 1).val ∧ (i 1).val < win3_6.index t3_0 (1 : Fin 2) * 1 + 1; omega

/-- THE RESULT ARRAY after the region: the read-out of the arrays the region was entered on. -/
theorem result (c : Dev nD) :
    (dat3 V c).arrAt 6 cfg3.N
      = Cert.ReferenceIdeal.Rows.headOps (V c main_v52) (V c main_v56) (V c main_v57) (V c main_v59) (V c main_v58) (V c main_v60) :=
  (dat3 V c).arrAt_eq_of_cover 6 _ (fun t _ => flushed_eq V c t) covered

end Cert.KernelIdeal.Readout

end
-- ==== Proof.KFold4.lean ====
/-
  The end of the kernel's program: the pooling stretch and the read-out region.

  The last stretch adds the rows of the third layer's features at their graphs, counts each graph's nodes, lays the
  two read-out weight matrices out as [input, output] and reshapes the two biases to one row each. The read-out
  region then leaves its result array at the read-out of those six arrays (KReadout.lean). Read back to the launch
  arrays, that is the network of RefNet.lean: the value the reference's own run leaves in its result.
-/
import proofs.«430828_j23476291240659_1_alg».proof.Proof.KFold3
import proofs.«430828_j23476291240659_1_alg».proof.Proof.KReadout

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL Idealize.SL.Sem
open Cert.ReferenceIdeal.Net

variable (m : (ℓ : Loc nD τ sig) → Buf (Elt Ideal) ℓ) (ρ : Dev nD → PrngReg) (c : Dev nD)

/-! ## After the last host stretch -/

theorem W7_pool : W7 m ρ c (Proc.devRef .tc main_v52) = poolSum (h3 m c) (m ((c : Thread nD τ).loc main_arg2)) := by
  show StableHlo.after hostOps3 (W6 m ρ c) (Proc.devRef .tc main_v52) = _
  dsimp only [hostOps3]
  after_results_simp
  rw [W6_arg2 m ρ c, W6_h3 m ρ c]
  rfl

theorem W7_count : W7 m ρ c (Proc.devRef .tc main_v56) = poolCount (m ((c : Thread nD τ).loc main_arg2)) := by
  show StableHlo.after hostOps3 (W6 m ρ c) (Proc.devRef .tc main_v56) = _
  dsimp only [hostOps3]
  after_results_simp
  rw [W6_arg2 m ρ c]
  rfl

theorem W7_w1 : W7 m ρ c (Proc.devRef .tc main_v57)
    = transpose Cert.ReferenceIdeal.S90x32 [1, 0] (m ((c : Thread nD τ).loc main_arg12)) Cert.ReferenceIdeal.Gen.transposes_S32x90_S90x32_1_0 := by
  show StableHlo.after hostOps3 (W6 m ρ c) (Proc.devRef .tc main_v57) = _
  dsimp only [hostOps3]
  after_results_simp
  rw [W6_arg12 m ρ c]

theorem W7_w2 : W7 m ρ c (Proc.devRef .tc main_v58)
    = transpose Cert.ReferenceIdeal.S32x1 [1, 0] (m ((c : Thread nD τ).loc main_arg14)) Cert.ReferenceIdeal.Gen.transposes_S1x32_S32x1_1_0 := by
  show StableHlo.after hostOps3 (W6 m ρ c) (Proc.devRef .tc main_v58) = _
  dsimp only [hostOps3]
  after_results_simp
  rw [W6_arg14 m ρ c]

theorem W7_b1 : W7 m ρ c (Proc.devRef .tc main_v59)
    = broadcastInDim Cert.ReferenceIdeal.S1x32 ![1] Cert.ReferenceIdeal.Gen.bcast_S32_S1x32_1 (m ((c : Thread nD τ).loc main_arg13)) := by
  show StableHlo.after hostOps3 (W6 m ρ c) (Proc.devRef .tc main_v59) = _
  dsimp only [hostOps3]
  after_results_simp
  rw [W6_arg13 m ρ c]
  exact Cert.LibBroadcast.shapeCast_row_eq_inDim _ _ _

theorem W7_b2 : W7 m ρ c (Proc.devRef .tc main_v60)
    = broadcastInDim Cert.ReferenceIdeal.S1x1 ![1] Cert.ReferenceIdeal.Gen.bcast_S1_S1x1_1 (m ((c : Thread nD τ).loc main_arg15)) := by
  show StableHlo.after hostOps3 (W6 m ρ c) (Proc.devRef .tc main_v60) = _
  dsimp only [hostOps3]
  after_results_simp
  rw [W6_arg15 m ρ c]
  exact Cert.LibBroadcast.shapeCast_row_eq_inDim _ _ _

/-! ## After the read-out region -/

/-- THE RESULT of the kernel's program: the network of the launch arrays. -/
theorem W8_result : W8 m ρ c (Proc.devRef .tc main_v61)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 6).trans ((Cert.KernelIdeal.Readout.result (V7 m ρ) c).trans ?_)
  show Cert.ReferenceIdeal.Rows.headOps (W7 m ρ c (Proc.devRef .tc main_v52)) (W7 m ρ c (Proc.devRef .tc main_v56)) (W7 m ρ c (Proc.devRef .tc main_v57))
    (W7 m ρ c (Proc.devRef .tc main_v59)) (W7 m ρ c (Proc.devRef .tc main_v58)) (W7 m ρ c (Proc.devRef .tc main_v60)) = _
  rw [W7_pool m ρ c, W7_count m ρ c, W7_w1 m ρ c, W7_b1 m ρ c, W7_w2 m ρ c, W7_b2 m ρ c]
  rfl

end Cert.KernelIdeal.Fold

end
-- ==== Proof.lean ====
/-
  A three-layer mean-aggregating graph network with a pooled two-layer read-out: the tiled kernel program and the
  plain array program compute the same function of their sixteen arguments over the extended reals.

  Both programs form, per layer, the in-degree of every node and the sum of its in-neighbours' feature rows with the
  same gather and accumulating scatters, and then
      h ↦ max( (sum / max(degree, 1)) · Wlᵀ + b + h · Wrᵀ , 0 ).
  The kernel program computes this dense part in a kernel tiled over blocks of 2000 nodes, narrowing the operands of
  its two products to a shorter float format; the reference computes it on whole arrays. Over the extended reals a
  change of float format is the identity, a product into a zero accumulator is the plain product, and a row of the
  layer depends only on the same row of the node arrays, so each block the kernel writes back is that block of the
  reference's layer (Spec, KPayload, KLayer0–2, RefLayer). The pooled read-out runs at one grid point on whole arrays
  and differs from the reference's only in the spelling of its broadcasts and products (KHead, KReadout). The values
  are then threaded through the kernel program's eight segments (KFold1–4) and read off the reference's run (RefNet):
  both results are `net` of the arguments. No law used here needs the inputs to be finite; the precondition is not
  opened. The idealization ledger is empty, so `preserves` holds trivially.
-/
import proofs.«430828_j23476291240659_1_alg».proof.Defs
import proofs.«430828_j23476291240659_1_alg».proof.Proof.Gen.Kernel
import proofs.«430828_j23476291240659_1_alg».proof.Proof.Gen.Kernel.Skeleton
import proofs.«430828_j23476291240659_1_alg».proof.Proof.Gen.Kernel.Launch
import proofs.«430828_j23476291240659_1_alg».proof.Proof.Gen.Kernel.Points
import proofs.«430828_j23476291240659_1_alg».proof.Proof.Gen.Kernel.Frame
import proofs.«430828_j23476291240659_1_alg».proof.Proof.Gen.KernelIdeal
import proofs.«430828_j23476291240659_1_alg».proof.Proof.Gen.KernelIdeal.Skeleton
import proofs.«430828_j23476291240659_1_alg».proof.Proof.Gen.KernelIdeal.Launch
import proofs.«430828_j23476291240659_1_alg».proof.Proof.Gen.KernelIdeal.Points
import proofs.«430828_j23476291240659_1_alg».proof.Proof.Gen.KernelIdeal.Frame
import proofs.«430828_j23476291240659_1_alg».proof.Proof.Gen.ReferenceIdeal
import proofs.«430828_j23476291240659_1_alg».proof.Proof.Gen.ReferenceIdeal.Run
import proofs.«430828_j23476291240659_1_alg».proof.Proof.Gen.Pre_finite_inputs
import proofs.«430828_j23476291240659_1_alg».proof.Proof.KRun
import proofs.«430828_j23476291240659_1_alg».proof.Proof.KFold4
import proofs.«430828_j23476291240659_1_alg».proof.Proof.RefNet
import Idealize.ShloMosaic.Adequacy
import Idealize.ShloMosaic.Init

noncomputable section

namespace Cert.Proof

open Idealize.ShloMosaic Idealize.ShloMosaic.TcCoe Idealize.SL.Sem

/-- The kernel program as printed runs to the end with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, both programs end with their result at the network of the arguments. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Fold.W8_result m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Net.result_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
